-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x1024 : Shape := ⟨2, ![512, 1024]⟩
abbrev S1024 : Shape := ⟨1, ![1024]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S65536x256 .f32) (main_v50 : FVec F S65536x256 .f32) : IVec S_ 1 :=
  let main_v51 : IVec S65536x256 1 := cmpf .olt main_v49 main_v50
  let main_c_19 : IVec S_ 1 := constantI S_ 1 1#1
  let main_v52 : IVec S_ 1 := (fun x v => Host.reduce IntOp.andi x v reducesTo_S65536x256_S_d0_1 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S65536x256 .f32) (main_arg10 : FVec F S65536x256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S65536x256 .f32 := Host.absf main_arg9
  let main_cst_16 : FVec F S_ .f32 := constant S_ .f32 0x7F800000#32
  let main_v45 : FVec F S65536x256 .f32 := broadcastInDim S65536x256 ![] bcast_S_S65536x256 main_cst_16
  let main_v46 : IVec S65536x256 1 := cmpf .olt main_v44 main_v45
  let main_c_17 : IVec S_ 1 := constantI S_ 1 1#1
  let main_v47 : IVec S_ 1 := (fun x v => Host.reduce IntOp.andi x v reducesTo_S65536x256_S_d0_1 h_S_) main_v46 main_c_17
  let main_v48 : IVec S_ 1 := andi main_v43 main_v47
  let main_v49 : FVec F S65536x256 .f32 := Host.absf main_arg10
  let main_cst_18 : FVec F S_ .f32 := constant S_ .f32 0x7F800000#32
  let main_v50 : FVec F S65536x256 .f32 := broadcastInDim S65536x256 ![] bcast_S_S65536x256 main_cst_18
  fn_part3 (F := F) main_v48 main_v49 main_v50

def fn_part1 {F : FTy → Type} [FloatOps F] (main_arg4 : FVec F S1024 .f32) (main_arg5 : FVec F S1024 .f32) (main_arg6 : FVec F S1024 .f32) (main_arg7 : FVec F S256 .f32) (main_arg8 : FVec F S256 .f32) (main_arg9 : FVec F S65536x256 .f32) (main_arg10 : FVec F S65536x256 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x256 .f32) (main_arg2 : FVec F S65536x256 .f32) (main_arg3 : FVec F S512x1024 .f32) (main_arg4 : FVec F S1024 .f32) (main_arg5 : FVec F S1024 .f32) (main_arg6 : FVec F S1024 .f32) (main_arg7 : FVec F S256 .f32) (main_arg8 : FVec F S256 .f32) (main_arg9 : FVec F S65536x256 .f32) (main_arg10 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S512x1024 : Shape := ⟨2, ![512, 1024]⟩
abbrev S1024 : Shape := ⟨1, ![1024]⟩
abbrev S256 : Shape := ⟨1, ![256]⟩
abbrev S1x1024 : Shape := ⟨2, ![1, 1024]⟩
abbrev S1x256 : Shape := ⟨2, ![1, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S512x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S256, .f32⟩
  | .hbm, ⟨8, _⟩ => ⟨S256, .f32⟩
  | .hbm, ⟨9, _⟩ => ⟨S65536x256, .f32⟩
  | .hbm, ⟨10, _⟩ => ⟨S65536x256, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x256, .f32⟩
  | .hbm, ⟨15, _⟩ => ⟨S1x256, .f32⟩
  | .hbm, ⟨16, _⟩ => ⟨S65536x256, .f32⟩
  | .hbm, ⟨17, _⟩ => ⟨S65536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1024_S1x1024 : S1024.ShapeCasts S1x1024
  shapeCasts_S256_S1x256 : S256.ShapeCasts S1x256
  inb_S512x256_S512x256_0_0 : ∀ a, (![0, 0] : Fin 2 → Nat) a + S512x256.size a ≤ S512x256.size a
  h_S512x256 : 0 < S512x256.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  slices_S512x1024_o0_0_S256x1024 : S512x1024.Slices ![0, 0] S256x1024
  slices_S512x1024_o256_0_S256x1024 : S512x1024.Slices ![256, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x256 : S512x1024.Slices ![0, 0] S512x256
  inb_S1x1024_S1x256_0_0 : ∀ a, (![0, 0] : Fin 2 → Nat) a + S1x256.size a ≤ S1x1024.size a
  h_S1x256 : 0 < S1x256.numel
  shapeCasts_S1x256_S1x256 : S1x256.ShapeCasts S1x256
  reduces_S512x256_S512 : S512x256.Reduces [1] S512
  shapeCasts_S512_S512x1 : S512.ShapeCasts S512x1
  broadcasts_S512x1_S512x256 : S512x1.Broadcasts S512x256
  broadcasts_S1x256_S512x256 : S1x256.Broadcasts S512x256
  slices_S512x1024_o0_256_S512x256 : S512x1024.Slices ![0, 256] S512x256
  inb_S1x1024_S1x256_0_256 : ∀ a, (![0, 256] : Fin 2 → Nat) a + S1x256.size a ≤ S1x1024.size a
  slices_S512x1024_o0_512_S512x256 : S512x1024.Slices ![0, 512] S512x256
  inb_S1x1024_S1x256_0_512 : ∀ a, (![0, 512] : Fin 2 → Nat) a + S1x256.size a ≤ S1x1024.size a
  slices_S512x1024_o0_768_S512x256 : S512x1024.Slices ![0, 768] S512x256
  inb_S1x1024_S1x256_0_768 : ∀ a, (![0, 768] : Fin 2 → Nat) a + S1x256.size a ≤ S1x1024.size a
  inb_S1x256_S1x256_0_0 : ∀ a, (![0, 0] : Fin 2 → Nat) a + S1x256.size a ≤ S1x256.size a
  natLt_1_32 : 1 < 32
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S65536x256.size a
  hwx0_2 : ∀ i : grid0.Coords, EltTy.bits .f32 = 32 ∨ (Rect.block (s := S65536x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .f32 = 32 ∨ (Rect.block (s := S512x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S65536x256.size a
  hwx0_9 : ∀ i : grid0.Coords, EltTy.bits .f32 = 32 ∨ (Rect.block (s := S65536x256) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S65536x256.size a
  hwx0_10 : ∀ i : grid0.Coords, EltTy.bits .f32 = 32 ∨ (Rect.block (s := S65536x256) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S65536x256.size a
  hwx0_11 : ∀ i : grid0.Coords, EltTy.bits .f32 = 32 ∨ (Rect.block (s := S65536x256) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S65536x256.size a
  hwx0_12 : ∀ i : grid0.Coords, EltTy.bits .f32 = 32 ∨ (Rect.block (s := S65536x256) S512x256.size (cc0_transform_12 i) (hinb0_12 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_0) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_1) S512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x1024 : Shape := ⟨2, ![512, 1024]⟩
abbrev S1024 : Shape := ⟨1, ![1024]⟩
abbrev S256 : Shape := ⟨1, ![256]⟩
abbrev S65536x512 : Shape := ⟨2, ![65536, 512]⟩
abbrev S65536x1024 : Shape := ⟨2, ![65536, 1024]⟩
abbrev S1x1024 : Shape := ⟨2, ![1, 1024]⟩
abbrev S65536x4x256 : Shape := ⟨3, ![65536, 4, 256]⟩
abbrev S_ : Shape := ⟨0, ![]⟩
abbrev S65536x4 : Shape := ⟨2, ![65536, 4]⟩
abbrev S65536x4x1 : Shape := ⟨3, ![65536, 4, 1]⟩
abbrev S65536x1x256 : Shape := ⟨3, ![65536, 1, 256]⟩
abbrev S65536x1 : Shape := ⟨2, ![65536, 1]⟩
abbrev S65536x1x1 : Shape := ⟨3, ![65536, 1, 1]⟩
abbrev S1x256 : Shape := ⟨2, ![1, 256]⟩

abbrev nBuf : Space → Nat
  | .hbm => 135
  | .vmem => 0
  | .smem => 0
  | _ => 0

abbrev hbmTy0_0 (i : Nat) : BufTy := match i % 128 with
  | 0 => ⟨S65536x256, .f32⟩
  | 1 => ⟨S65536x256, .f32⟩
  | 2 => ⟨S65536x256, .f32⟩
  | 3 => ⟨S512x1024, .f32⟩
  | 4 => ⟨S1024, .f32⟩
  | 5 => ⟨S1024, .f32⟩
  | 6 => ⟨S1024, .f32⟩
  | 7 => ⟨S256, .f32⟩
  | 8 => ⟨S256, .f32⟩
  | 9 => ⟨S65536x256, .f32⟩
  | 10 => ⟨S65536x256, .f32⟩
  | 11 => ⟨S65536x512, .f32⟩
  | 12 => ⟨S65536x1024, .f32⟩
  | 13 => ⟨S1x1024, .f32⟩
  | 14 => ⟨S65536x1024, .f32⟩
  | 15 => ⟨S65536x1024, .f32⟩
  | 16 => ⟨S65536x4x256, .f32⟩
  | 17 => ⟨S_, .f32⟩
  | 18 => ⟨S65536x4, .f32⟩
  | 19 => ⟨S65536x4x1, .f32⟩
  | 20 => ⟨S_, .f32⟩
  | 21 => ⟨S65536x4x1, .f32⟩
  | 22 => ⟨S65536x4x1, .f32⟩
  | 23 => ⟨S65536x4x256, .f32⟩
  | 24 => ⟨S65536x4x256, .f32⟩
  | 25 => ⟨S65536x4x256, .f32⟩
  | 26 => ⟨S_, .f32⟩
  | 27 => ⟨S65536x4, .f32⟩
  | 28 => ⟨S65536x4x1, .f32⟩
  | 29 => ⟨S_, .f32⟩
  | 30 => ⟨S65536x4x1, .f32⟩
  | 31 => ⟨S65536x4x1, .f32⟩
  | 32 => ⟨S65536x4x256, .f32⟩
  | 33 => ⟨S65536x4x256, .f32⟩
  | 34 => ⟨S_, .f32⟩
  | 35 => ⟨S65536x4x1, .f32⟩
  | 36 => ⟨S65536x4x1, .f32⟩
  | 37 => ⟨S65536x4x1, .f32⟩
  | 38 => ⟨S65536x4x256, .f32⟩
  | 39 => ⟨S65536x4x256, .f32⟩
  | 40 => ⟨S65536x1024, .f32⟩
  | 41 => ⟨S1x1024, .f32⟩
  | 42 => ⟨S65536x1024, .f32⟩
  | 43 => ⟨S65536x1024, .f32⟩
  | 44 => ⟨S1x1024, .f32⟩
  | 45 => ⟨S65536x1024, .f32⟩
  | 46 => ⟨S65536x1024, .f32⟩
  | 47 => ⟨S65536x256, .f32⟩
  | 48 => ⟨S65536x256, .f32⟩
  | 49 => ⟨S65536x256, .f32⟩
  | 50 => ⟨S65536x256, .f32⟩
  | 51 => ⟨S_, .f32⟩
  | 52 => ⟨S65536x256, .f32⟩
  | 53 => ⟨S65536x256, .f32⟩
  | 54 => ⟨S65536x256, .f32⟩
  | 55 => ⟨S65536x256, .f32⟩
  | 56 => ⟨S_, .f32⟩
  | 57 => ⟨S65536x256, .f32⟩
  | 58 => ⟨S65536x256, .f32⟩
  | 59 => ⟨S_, .f32⟩
  | 60 => ⟨S65536x256, .f32⟩
  | 61 => ⟨S65536x256, .f32⟩
  | 62 => ⟨S65536x256, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S_, .f32⟩
  | 69 => ⟨S65536x256, .f32⟩
  | 70 => ⟨S65536x256, .f32⟩
  | 71 => ⟨S65536x256, .f32⟩
  | 72 => ⟨S65536x256, .f32⟩
  | 73 => ⟨S65536x256, .f32⟩
  | 74 => ⟨S65536x1x256, .f32⟩
  | 75 => ⟨S_, .f32⟩
  | 76 => ⟨S65536x1, .f32⟩
  | 77 => ⟨S65536x1x1, .f32⟩
  | 78 => ⟨S_, .f32⟩
  | 79 => ⟨S65536x1x1, .f32⟩
  | 80 => ⟨S65536x1x1, .f32⟩
  | 81 => ⟨S65536x1x256, .f32⟩
  | 82 => ⟨S65536x1x256, .f32⟩
  | 83 => ⟨S65536x1x256, .f32⟩
  | 84 => ⟨S_, .f32⟩
  | 85 => ⟨S65536x1, .f32⟩
  | 86 => ⟨S65536x1x1, .f32⟩
  | 87 => ⟨S_, .f32⟩
  | 88 => ⟨S65536x1x1, .f32⟩
  | 89 => ⟨S65536x1x1, .f32⟩
  | 90 => ⟨S65536x1x256, .f32⟩
  | 91 => ⟨S65536x1x256, .f32⟩
  | 92 => ⟨S_, .f32⟩
  | 93 => ⟨S65536x1x1, .f32⟩
  | 94 => ⟨S65536x1x1, .f32⟩
  | 95 => ⟨S65536x1x1, .f32⟩
  | 96 => ⟨S65536x1x256, .f32⟩
  | 97 => ⟨S65536x1x256, .f32⟩
  | 98 => ⟨S65536x256, .f32⟩
  | 99 => ⟨S1x256, .f32⟩
  | 100 => ⟨S65536x256, .f32⟩
  | 101 => ⟨S65536x256, .f32⟩
  | 102 => ⟨S1x256, .f32⟩
  | 103 => ⟨S65536x256, .f32⟩
  | 104 => ⟨S65536x256, .f32⟩
  | 105 => ⟨S65536x256, .f32⟩
  | 106 => ⟨S65536x256, .f32⟩
  | 107 => ⟨S65536x256, .f32⟩
  | 108 => ⟨S_, .f32⟩
  | 109 => ⟨S65536x256, .f32⟩
  | 110 => ⟨S65536x256, .f32⟩
  | 111 => ⟨S_, .f32⟩
  | 112 => ⟨S65536x256, .f32⟩
  | 113 => ⟨S65536x256, .f32⟩
  | 114 => ⟨S65536x256, .f32⟩
  | 115 => ⟨S_, .f32⟩
  | 116 => ⟨S65536x256, .f32⟩
  | 117 => ⟨S65536x256, .i1⟩
  | 118 => ⟨S65536x256, .f32⟩
  | 119 => ⟨S_, .f32⟩
  | 120 => ⟨S65536x256, .f32⟩
  | 121 => ⟨S65536x256, .i1⟩
  | 122 => ⟨S65536x256, .f32⟩
  | 123 => ⟨S65536x256, .f32⟩
  | 124 => ⟨S_, .f32⟩
  | 125 => ⟨S65536x256, .f32⟩
  | 126 => ⟨S65536x256, .f32⟩
  | 127 => ⟨S65536x256, .f32⟩
  | _ => ⟨S65536x256, .f32⟩

abbrev hbmTy0_1 (i : Nat) : BufTy := match i % 128 with
  | 0 => ⟨S65536x256, .f32⟩
  | 1 => ⟨S65536x256, .f32⟩
  | 2 => ⟨S_, .f32⟩
  | 3 => ⟨S65536x256, .f32⟩
  | 4 => ⟨S65536x256, .f32⟩
  | 5 => ⟨S65536x256, .f32⟩
  | 6 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_18 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  concatenates_S65536x256_S65536x256_S65536x512_d1 : Shape.Concatenates [S65536x256, S65536x256] S65536x512 1
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S65536x1024_S65536x4x256 : S65536x1024.ShapeCasts S65536x4x256
  reducesTo_S65536x4x256_S65536x4_d2 : S65536x4x256.ReducesTo [2] S65536x4
  h_S_ : 0 < S_.numel
  bcast_S65536x4_S65536x4x1_0_1 : S65536x4.BroadcastsInDim S65536x4x1 (![0, 1] : Fin 2 → Fin S65536x4x1.rank)
  bcast_S_S65536x4x1 : S_.BroadcastsInDim S65536x4x1 (![] : Fin 0 → Fin S65536x4x1.rank)
  bcast_S65536x4x1_S65536x4x256_0_1_2 : S65536x4x1.BroadcastsInDim S65536x4x256 (![0, 1, 2] : Fin 3 → Fin S65536x4x256.rank)
  shapeCasts_S65536x4x256_S65536x1024 : S65536x4x256.ShapeCasts S65536x1024
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  shapeCasts_S65536x256_S65536x1x256 : S65536x256.ShapeCasts S65536x1x256
  reducesTo_S65536x1x256_S65536x1_d2 : S65536x1x256.ReducesTo [2] S65536x1
  bcast_S65536x1_S65536x1x1_0_1 : S65536x1.BroadcastsInDim S65536x1x1 (![0, 1] : Fin 2 → Fin S65536x1x1.rank)
  bcast_S_S65536x1x1 : S_.BroadcastsInDim S65536x1x1 (![] : Fin 0 → Fin S65536x1x1.rank)
  bcast_S65536x1x1_S65536x1x256_0_1_2 : S65536x1x1.BroadcastsInDim S65536x1x256 (![0, 1, 2] : Fin 3 → Fin S65536x1x256.rank)
  shapeCasts_S65536x1x256_S65536x256 : S65536x1x256.ShapeCasts S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  dot_S65536x512_S512x1024_S65536x1024_1_0_0_1_n_n_wf : DotDims.WF S65536x512 S512x1024 S65536x1024 [1] [0] [0] [1] [] []

variable [Facts₀]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf

class Facts : Prop extends Facts₀ where

variable [Facts]
-- ==== Proof.CellSpec.lean ====
/-
  The mathematics of one LayerNorm-LSTM cell step with zoneout, stated once, row by row, on the extended reals,
  free of both programs.

  For one batch row with inputs `xr`, `hr`, `cr` (256 entries each), weights `W` (512 × 1024), and per-feature
  vectors `b`, `g1`, `b1` (1024) and `g2`, `b2` (256):

    pre n      = Σ_k xr k · W k n  +  Σ_k hr k · W (256 + k) n  +  b n                      (n < 1024)
    gate g q   = LN (pre restricted to columns 256 g … 256 g + 255) with gain g1 and bias b1 there, at q   (g < 4)
    newC q     = cr q · σ (gate 2 q + 1) + σ (gate 0 q) · tanh (gate 1 q)
    cellLn q   = LN newC with gain g2 and bias b2, at q
    newH q     = tanh (cellLn q) · σ (gate 3 q)
    outH q     = keep(mh) · newH q + (1 − keep(mh)) · hr q
    outC q     = keep(mc) · cellLn q + (1 − keep(mc)) · cr q

  where LN v γ β q = (v q − mean v) · rsqrt (var v + ε) · γ q + β q over 256 entries, mean and variance by division
  by the float 256, ε the float nearest 1e-5, σ the logistic function, and keep(u) is 1 when u is below the float
  nearest 0.7 and 0 otherwise. Every float literal is kept as its pattern: the same pattern stands on both sides of
  the comparison this file serves and is never evaluated, except the pattern of 1.0 (`one32_eq`).

  The pre-activation has two spellings: a sum over the 512 entries of the concatenated row (`preCat`) and the two
  half sums (`preSplit`). They are one value in any commutative monoid (`preCat_eq_preSplit`): no finiteness is used.
-/
import Idealize.ShloMosaic.PureOps.Ideal
import Idealize.ShloMosaic.Lib.ValueIdx
import Mathlib.Algebra.BigOperators.Fin

noncomputable section

namespace LstmCell

open Idealize.ShloMosaic Idealize.ShloMosaic.ValueIdx

/-! ## Literals, as patterns -/

/-- The float 256.0, the length of a normalized block. -/
def c256 : EReal := Ideal.ofBits .f32 0x43800000#32
/-- The float nearest 1e-5, added to the variance. -/
def epsLn : EReal := Ideal.ofBits .f32 0x3727C5AC#32
/-- The float 1.0. -/
def one32 : EReal := Ideal.ofBits .f32 0x3F800000#32
/-- The float nearest 0.7, the zoneout threshold. -/
def keepThr : EReal := Ideal.ofBits .f32 0x3F333333#32

/-- The pattern of 1.0 denotes the real 1. -/
theorem one32_eq : one32 = 1 := by
  unfold one32
  simp [Ideal.ofBits, Ideal.ieee, -EReal.coe_mul]; norm_num

/-! ## Column arithmetic -/

/-- Row k of the upper half of the weights. -/
def lo (k : Fin 256) : Fin 512 := ⟨k.val, by omega⟩
/-- Row 256 + k, in the lower half of the weights. -/
def hi (k : Fin 256) : Fin 512 := ⟨256 + k.val, by omega⟩
/-- Column q of gate block g among the 1024 pre-activation columns. -/
def blk (g : Fin 4) (q : Fin 256) : Fin 1024 := ⟨256 * g.val + q.val, by omega⟩

/-! ## Layer normalization of a 256-entry row -/

def rowMean (v : Fin 256 → EReal) : EReal := Ideal.div (∑ k : Fin 256, v k) c256

def rowVar (v : Fin 256 → EReal) : EReal :=
  Ideal.div (∑ k : Fin 256, (v k - rowMean v) * (v k - rowMean v)) c256

def lnRow (v γ β : Fin 256 → EReal) (q : Fin 256) : EReal :=
  (v q - rowMean v) * Ideal.rsqrt (rowVar v + epsLn) * γ q + β q

/-! ## The gate pre-activations -/

/-- The concatenated row `[xr, hr]`. -/
def cat (xr hr : Fin 256 → EReal) (k : Fin 512) : EReal :=
  if h : k.val < 256 then xr ⟨k.val, h⟩ else hr ⟨k.val - 256, by omega⟩

/-- One sum over the concatenated row. -/
def preCat (xr hr : Fin 256 → EReal) (W : Fin 512 → Fin 1024 → EReal) (b : Fin 1024 → EReal) (n : Fin 1024) : EReal :=
  (∑ k : Fin 512, cat xr hr k * W k n) + b n

/-- The two half sums. -/
def preSplit (xr hr : Fin 256 → EReal) (W : Fin 512 → Fin 1024 → EReal) (b : Fin 1024 → EReal) (n : Fin 1024) : EReal :=
  (∑ k : Fin 256, xr k * W (lo k) n) + (∑ k : Fin 256, hr k * W (hi k) n) + b n

/-- A sum over 512 = 256 + 256 entries is the sum of its two halves. -/
theorem preCat_eq_preSplit (xr hr : Fin 256 → EReal) (W : Fin 512 → Fin 1024 → EReal) (b : Fin 1024 → EReal) :
    preCat xr hr W b = preSplit xr hr W b := by
  funext n
  unfold preCat preSplit
  have hsplit := Fin.sum_univ_add (a := 256) (b := 256) (fun k : Fin (256 + 256) => cat xr hr k * W k n)
  have hlo : ∀ k : Fin 256, cat xr hr (Fin.castAdd 256 k) * W (Fin.castAdd 256 k) n = xr k * W (lo k) n := by
    intro k
    have hk : (Fin.castAdd 256 k : Fin (256 + 256)).val < 256 := k.isLt
    unfold cat
    rw [dif_pos hk]
    rfl
  have hhi : ∀ k : Fin 256, cat xr hr (Fin.natAdd 256 k) * W (Fin.natAdd 256 k) n = hr k * W (hi k) n := by
    intro k
    have hk : ¬ (Fin.natAdd 256 k : Fin (256 + 256)).val < 256 := by
      show ¬ 256 + k.val < 256
      omega
    unfold cat
    rw [dif_neg hk]
    have hidx : (⟨(Fin.natAdd 256 k : Fin (256 + 256)).val - 256, by show 256 + k.val - 256 < 256; omega⟩ : Fin 256) = k :=
      Fin.ext (by show 256 + k.val - 256 = k.val; omega)
    rw [hidx]
    rfl
  have hsum : (∑ k : Fin 512, cat xr hr k * W k n)
      = (∑ k : Fin 256, xr k * W (lo k) n) + (∑ k : Fin 256, hr k * W (hi k) n) := by
    refine hsplit.trans ?_
    rw [Finset.sum_congr rfl (fun k _ => hlo k), Finset.sum_congr rfl (fun k _ => hhi k)]
  rw [hsum]

/-! ## The cell -/

/-- Gate block g, normalized, from a pre-activation row. -/
def gate (pre : Fin 1024 → EReal) (g1 b1 : Fin 1024 → EReal) (g : Fin 4) (q : Fin 256) : EReal :=
  lnRow (fun k => pre (blk g k)) (fun k => g1 (blk g k)) (fun k => b1 (blk g k)) q

/-- The candidate cell state before its normalization. -/
def newC (pre : Fin 1024 → EReal) (cr : Fin 256 → EReal) (g1 b1 : Fin 1024 → EReal) (q : Fin 256) : EReal :=
  cr q * Ideal.logistic (gate pre g1 b1 2 q + one32) + Ideal.logistic (gate pre g1 b1 0 q) * Ideal.tanh (gate pre g1 b1 1 q)

/-- The normalized new cell state. -/
def cellLn (pre : Fin 1024 → EReal) (cr : Fin 256 → EReal) (g1 b1 : Fin 1024 → EReal) (g2 b2 : Fin 256 → EReal)
    (q : Fin 256) : EReal :=
  lnRow (newC pre cr g1 b1) g2 b2 q

/-- The new hidden state. -/
def newH (pre : Fin 1024 → EReal) (cr : Fin 256 → EReal) (g1 b1 : Fin 1024 → EReal) (g2 b2 : Fin 256 → EReal)
    (q : Fin 256) : EReal :=
  Ideal.tanh (cellLn pre cr g1 b1 g2 b2 q) * Ideal.logistic (gate pre g1 b1 3 q)

/-- The zoneout indicator: 1 below the threshold, else 0. -/
def keepBit (u : EReal) : EReal := (((Ideal.cmp .olt u keepThr).toNat : ℝ) : EReal)

/-- Keep the new value where the indicator is 1, the old one where it is 0. -/
def zone (u new old : EReal) : EReal := keepBit u * new + (one32 - keepBit u) * old

/-- The hidden output at column q of a row, from the row's pre-activations. -/
def outH (pre : Fin 1024 → EReal) (hr cr : Fin 256 → EReal) (g1 b1 : Fin 1024 → EReal) (g2 b2 : Fin 256 → EReal)
    (u : EReal) (q : Fin 256) : EReal :=
  zone u (newH pre cr g1 b1 g2 b2 q) (hr q)

/-- The cell output at column q of a row. -/
def outC (pre : Fin 1024 → EReal) (cr : Fin 256 → EReal) (g1 b1 : Fin 1024 → EReal) (g2 b2 : Fin 256 → EReal)
    (u : EReal) (q : Fin 256) : EReal :=
  zone u (cellLn pre cr g1 b1 g2 b2 q) (cr q)

/-! ## The two results as whole-array functions of the eleven arguments -/

abbrev SB : Shape := ⟨2, ![65536, 256]⟩
abbrev SW : Shape := ⟨2, ![512, 1024]⟩
abbrev S4H : Shape := ⟨1, ![1024]⟩
abbrev SH : Shape := ⟨1, ![256]⟩

/-- Row r's pre-activations, in the split spelling, from the arrays. -/
def preOf (x h : SB.Idx → EReal) (W : SW.Idx → EReal) (bias : S4H.Idx → EReal) (r : Fin 65536) : Fin 1024 → EReal :=
  preSplit (fun k => x (ix2 r k)) (fun k => h (ix2 r k)) (fun k n => W (ix2 k n)) (fun n => bias (ix1 n))

/-- The hidden result array. -/
def GH (x h c : SB.Idx → EReal) (W : SW.Idx → EReal) (bias g1 b1 : S4H.Idx → EReal) (g2 b2 : SH.Idx → EReal)
    (mh : SB.Idx → EReal) : SB.Idx → EReal := fun i =>
  let r : Fin 65536 := i 0
  let q : Fin 256 := i 1
  outH (preOf x h W bias r) (fun k => h (ix2 r k)) (fun k => c (ix2 r k)) (fun n => g1 (ix1 n)) (fun n => b1 (ix1 n))
    (fun k => g2 (ix1 k)) (fun k => b2 (ix1 k)) (mh (ix2 r q)) q

/-- The cell result array. -/
def GC (x h c : SB.Idx → EReal) (W : SW.Idx → EReal) (bias g1 b1 : S4H.Idx → EReal) (g2 b2 : SH.Idx → EReal)
    (mc : SB.Idx → EReal) : SB.Idx → EReal := fun i =>
  let r : Fin 65536 := i 0
  let q : Fin 256 := i 1
  outC (preOf x h W bias r) (fun k => c (ix2 r k)) (fun n => g1 (ix1 n)) (fun n => b1 (ix1 n))
    (fun k => g2 (ix1 k)) (fun k => b2 (ix1 k)) (mc (ix2 r q)) q

end LstmCell

end
-- ==== Proof.KerCell.lean ====
/-
  The kernel's body at one entry of a block.

  At a grid point the body reads a 512-row block of x, h, c and of the two zoneout masks, the whole weight matrix and
  the one-row gain and bias arrays, and leaves in each output buffer one whole 512 × 256 block. Read at row p and
  column q, what it leaves for the hidden state is the cell step's `outH` of row p of the blocks, and for the cell
  state its `outC`: the two matrix products into zero accumulators are the two half sums of the pre-activation,
  each of the four column blocks of the pre-activation is normalized over its own 256 entries, and the widened
  comparison converted signed is the 0/1 indicator.
-/
import proofs.«178262_j70815420776934_1_alg».proof.Proof.Gen.KernelIdeal.Frame
import proofs.«178262_j70815420776934_1_alg».proof.Proof.CellSpec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.KerCell

open Cert.KernelIdeal Cert.KernelIdeal.Gen Idealize.ShloMosaic Idealize.ShloMosaic.ValueIdx

/-! ## Block operations read at an entry

A block is 512 rows by 256 columns; a column vector is 512 by 1; a gain or bias row is 1 by 256. -/

/-- The lane sums of a block: one sum per row. -/
def rowSums {F : FTy → Type} [FloatOps F] (v : FVec F S512x256 .f32) : FVec F S512 .f32 :=
  multiReduction .add [1] S512 v 0x00000000#32 reduces_S512x256_S512 (.inl rfl) rfl

/-- At row p it is the sum of that row's 256 entries. -/
theorem rowSums_apply (v : FVec Ideal S512x256 .f32) (p : Fin 512) :
    rowSums v (ix1 p) = ∑ k : Fin 256, v (ix2 p k) :=
  (Ideal.multiReduction_add_single v 0x00000000#32 reduces_S512x256_S512 (.inl rfl) rfl (ix1 p)).trans
    (Finset.sum_congr rfl fun k _ => congrArg v (funext fun a => Fin.ext (by
      match a with
      | ⟨0, _⟩ => rfl
      | ⟨1, _⟩ => rfl)))

/-- A vector of 512 entries viewed as a column: entry (p, 0) is entry p. -/
theorem colCast_apply (w : S512.Idx → EReal) (p : Fin 512) :
    shapeCast S512x1 w shapeCasts_S512_S512x1 (ix2 p (0 : Fin 1)) = w (ix1 p) :=
  shapeCast_apply w _ _ _ (by
    rw [Shape.rowMajor_val_one, Shape.rowMajor_val_two]
    show p.val = p.val * 1 + 0
    omega)

/-- A column laid across the 256 columns: entry (p, q) is the column's entry (p, 0). -/
theorem colBcast_apply (w : S512x1.Idx → EReal) (p : Fin 512) (q : Fin 256) :
    broadcastTo S512x256 w broadcasts_S512x1_S512x256 (ix2 p q) = w (ix2 p (0 : Fin 1)) :=
  broadcastTo_apply w _ (ix2 p q) (ix2 p (0 : Fin 1)) (fun a => by
    match a with
    | ⟨0, _⟩ => rfl
    | ⟨1, _⟩ => rfl)

/-- A row laid down the 512 rows: entry (p, q) is the row's entry (0, q). -/
theorem rowBcast_apply (γ : S1x256.Idx → EReal) (p : Fin 512) (q : Fin 256) :
    broadcastTo S512x256 γ broadcasts_S1x256_S512x256 (ix2 p q) = γ (ix2 (0 : Fin 1) q) :=
  broadcastTo_1b_ab_apply γ _ p q

/-- The 1024-wide bias row laid down the 512 rows. -/
theorem biasBcast_apply (b : S1x1024.Idx → EReal) (p : Fin 512) (n : Fin 1024) :
    broadcastTo S512x1024 b broadcasts_S1x1024_S512x1024 (ix2 p n) = b (ix2 (0 : Fin 1) n) :=
  broadcastTo_1b_ab_apply b _ p n

theorem rsqrt_apply {s : Shape} (a : FVec Ideal s .f32) (i : s.Idx) : rsqrt a i = Ideal.rsqrt (a i) := rfl
theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

/-! ## The column blocks of the pre-activation, of the gains and of the biases -/

theorem gateCols0_apply (v : S512x1024.Idx → EReal) (p : Fin 512) (q : Fin 256) :
    extractStridedSlice S512x256 ![0, 0] v slices_S512x1024_o0_0_S512x256 (ix2 p q) = v (ix2 p (LstmCell.blk 0 q)) :=
  slice2_axis1_apply 0 v _ p q _ (by show 256 * 0 + q.val = 0 + q.val; omega)
theorem gateCols1_apply (v : S512x1024.Idx → EReal) (p : Fin 512) (q : Fin 256) :
    extractStridedSlice S512x256 ![0, 256] v slices_S512x1024_o0_256_S512x256 (ix2 p q) = v (ix2 p (LstmCell.blk 1 q)) :=
  slice2_axis1_apply 256 v _ p q _ (by show 256 * 1 + q.val = 256 + q.val; omega)
theorem gateCols2_apply (v : S512x1024.Idx → EReal) (p : Fin 512) (q : Fin 256) :
    extractStridedSlice S512x256 ![0, 512] v slices_S512x1024_o0_512_S512x256 (ix2 p q) = v (ix2 p (LstmCell.blk 2 q)) :=
  slice2_axis1_apply 512 v _ p q _ (by show 256 * 2 + q.val = 512 + q.val; omega)
theorem gateCols3_apply (v : S512x1024.Idx → EReal) (p : Fin 512) (q : Fin 256) :
    extractStridedSlice S512x256 ![0, 768] v slices_S512x1024_o0_768_S512x256 (ix2 p q) = v (ix2 p (LstmCell.blk 3 q)) :=
  slice2_axis1_apply 768 v _ p q _ (by show 256 * 3 + q.val = 768 + q.val; omega)

/-- Columns 256 g … 256 g + 255 of a 1024-wide row, as a 256-wide row. -/
def rowPart (g : Fin 4) (x : Vec Ideal S1x1024 .f32) : Vec Ideal S1x256 .f32 :=
  fun i => x (ix2 (0 : Fin 1) (LstmCell.blk g (i 1)))

theorem rowPart_apply (g : Fin 4) (x : Vec Ideal S1x1024 .f32) (k : Fin 256) :
    rowPart g x (ix2 (0 : Fin 1) k) = x (ix2 (0 : Fin 1) (LstmCell.blk g k)) := rfl

/-- A load of 256 columns of a 1024-wide row, from column 256 g, is that part of the row. -/
theorem rowCols0_eq (x : Vec Ideal S1x1024 .f32) : View.ld x r0_3 = rowPart 0 x :=
  funext fun i => congrArg x (funext fun a => Fin.ext (by
    match a with
    | ⟨0, _⟩ => show 0 + 1 * (i 0).val = 0; have h0 : (i 0).val < 1 := (i 0).isLt; omega
    | ⟨1, _⟩ => show 0 + 1 * (i 1).val = 256 * 0 + (i 1).val; omega))
theorem rowCols1_eq (x : Vec Ideal S1x1024 .f32) : View.ld x r0_4 = rowPart 1 x :=
  funext fun i => congrArg x (funext fun a => Fin.ext (by
    match a with
    | ⟨0, _⟩ => show 0 + 1 * (i 0).val = 0; have h0 : (i 0).val < 1 := (i 0).isLt; omega
    | ⟨1, _⟩ => show 256 + 1 * (i 1).val = 256 * 1 + (i 1).val; omega))
theorem rowCols2_eq (x : Vec Ideal S1x1024 .f32) : View.ld x r0_5 = rowPart 2 x :=
  funext fun i => congrArg x (funext fun a => Fin.ext (by
    match a with
    | ⟨0, _⟩ => show 0 + 1 * (i 0).val = 0; have h0 : (i 0).val < 1 := (i 0).isLt; omega
    | ⟨1, _⟩ => show 512 + 1 * (i 1).val = 256 * 2 + (i 1).val; omega))
theorem rowCols3_eq (x : Vec Ideal S1x1024 .f32) : View.ld x r0_6 = rowPart 3 x :=
  funext fun i => congrArg x (funext fun a => Fin.ext (by
    match a with
    | ⟨0, _⟩ => show 0 + 1 * (i 0).val = 0; have h0 : (i 0).val < 1 := (i 0).isLt; omega
    | ⟨1, _⟩ => show 768 + 1 * (i 1).val = 256 * 3 + (i 1).val; omega))

/-! ## The layer normalization of a block -/

/-- The body's normalization of a block, as it is spelt each of the five times: the row means as a column, the
    centred block, the row variances, the reciprocal root, then gain and bias rows. -/
def lnBlk {F : FTy → Type} [FloatOps F] (v : FVec F S512x256 .f32) (γ β : FVec F S1x256 .f32) : FVec F S512x256 .f32 :=
  let mean : FVec F S512x1 .f32 :=
    divf (shapeCast S512x1 (rowSums v) shapeCasts_S512_S512x1)
      (broadcast S512x1 (Scalar.ofBits .f32 0x43800000#32))
  let d : FVec F S512x256 .f32 := subf v (broadcastTo S512x256 mean broadcasts_S512x1_S512x256)
  let var : FVec F S512x1 .f32 :=
    divf (shapeCast S512x1 (rowSums (mulf d d)) shapeCasts_S512_S512x1)
      (broadcast S512x1 (Scalar.ofBits .f32 0x43800000#32))
  let rs : FVec F S512x1 .f32 := rsqrt (addf var (broadcast S512x1 (Scalar.ofBits .f32 0x3727C5AC#32)))
  addf (mulf (mulf d (broadcastTo S512x256 rs broadcasts_S512x1_S512x256)) (broadcastTo S512x256 γ broadcasts_S1x256_S512x256))
    (broadcastTo S512x256 β broadcasts_S1x256_S512x256)

/-- Entry (p, q) of a normalized block is the row normalization of row p, at q. -/
theorem lnBlk_apply (v : FVec Ideal S512x256 .f32) (γ β : FVec Ideal S1x256 .f32) (p : Fin 512) (q : Fin 256) :
    lnBlk v γ β (ix2 p q)
      = LstmCell.lnRow (fun k => v (ix2 p k)) (fun k => γ (ix2 (0 : Fin 1) k)) (fun k => β (ix2 (0 : Fin 1) k)) q := by
  unfold lnBlk
  simp only [addf_apply, mulf_apply, subf_apply, divf_apply, rsqrt_apply, broadcast_apply, rowBcast_apply, colBcast_apply,
    colCast_apply, rowSums_apply]
  rfl

/-! ## The payloads are normalizations of blocks -/

section Bridges
variable {F : FTy → Type} [FloatOps F]

theorem gateI_eq (g b : Vec F S1x256 .f32) (v0 v1 : Vec F S512x256 .f32) (v3 : Vec F S512x1024 .f32) (v12 : Vec F S1x1024 .f32) :
    k0_pay10 (k0_pay5 g) (k0_pay6 b) (k0_pay8 v0 v1 v3 v12) (k0_pay9 v0 v1 v3 v12)
      = lnBlk (extractStridedSlice S512x256 ![0, 0] (k0_pay3 v0 v1 v3 v12) slices_S512x1024_o0_0_S512x256)
          (shapeCast S1x256 g shapeCasts_S1x256_S1x256) (shapeCast S1x256 b shapeCasts_S1x256_S1x256) := rfl

theorem gateJ_eq (v15 : FVec F S512x1024 .f32) (g b : Vec F S1x256 .f32) :
    k0_pay11 v15 g b
      = lnBlk (extractStridedSlice S512x256 ![0, 256] v15 slices_S512x1024_o0_256_S512x256)
          (shapeCast S1x256 g shapeCasts_S1x256_S1x256) (shapeCast S1x256 b shapeCasts_S1x256_S1x256) := rfl

theorem gateO_eq (v15 : FVec F S512x1024 .f32) (g b : Vec F S1x256 .f32) :
    k0_pay17 v15 g b
      = lnBlk (extractStridedSlice S512x256 ![0, 768] v15 slices_S512x1024_o0_768_S512x256)
          (shapeCast S1x256 g shapeCasts_S1x256_S1x256) (shapeCast S1x256 b shapeCasts_S1x256_S1x256) := rfl

theorem keepOld_eq (v2 : Vec F S512x256 .f32) (v15 : FVec F S512x1024 .f32) (g b : Vec F S1x256 .f32) :
    k0_pay18 v2 (k0_pay12 v15) (k0_pay13 g) (k0_pay14 b) (k0_pay15 v15) (k0_pay16 v15)
      = mulf v2 (logistic (addf
          (lnBlk (extractStridedSlice S512x256 ![0, 512] v15 slices_S512x1024_o0_512_S512x256)
            (shapeCast S1x256 g shapeCasts_S1x256_S1x256) (shapeCast S1x256 b shapeCasts_S1x256_S1x256))
          (broadcast S512x256 (Scalar.ofBits .f32 0x3F800000#32)))) := rfl

theorem cellLn_eq (v127 v128 v129 : FVec F S512x256 .f32) (g b : Vec F S1x256 .f32) :
    k0_pay21 v127 v128 v129 g b
      = lnBlk (addf v127 (mulf v128 v129)) (shapeCast S1x256 g shapeCasts_S1x256_S1x256)
          (shapeCast S1x256 b shapeCasts_S1x256_S1x256) := rfl

end Bridges

/-! ## The two matrix products are the two half sums -/

/-- The four operand coordinates of the product of a 512 × 256 by a 256 × 1024 matrix. -/
theorem lhsRow (j : S512x1024.Idx) (k : dot_S512x256_S256x1024_S512x1024_1_0_0_1_n_n.contr.Idx) :
    (dot_S512x256_S256x1024_S512x1024_1_0_0_1_n_n.lhsIdx j k 0).val = (j 0).val := rfl
theorem lhsCol (j : S512x1024.Idx) (k : dot_S512x256_S256x1024_S512x1024_1_0_0_1_n_n.contr.Idx) :
    (dot_S512x256_S256x1024_S512x1024_1_0_0_1_n_n.lhsIdx j k 1).val = (k ⟨0, by decide⟩).val := rfl
theorem rhsRow (j : S512x1024.Idx) (k : dot_S512x256_S256x1024_S512x1024_1_0_0_1_n_n.contr.Idx) :
    (dot_S512x256_S256x1024_S512x1024_1_0_0_1_n_n.rhsIdx j k 0).val = (k ⟨0, by decide⟩).val := rfl
theorem rhsCol (j : S512x1024.Idx) (k : dot_S512x256_S256x1024_S512x1024_1_0_0_1_n_n.contr.Idx) :
    (dot_S512x256_S256x1024_S512x1024_1_0_0_1_n_n.rhsIdx j k 1).val = (j 1).val := rfl

/-- A product into a zero accumulator, at (p, n), is the sum over k of a(p, k) · b(k, n). -/
theorem prod_apply (a : FVec Ideal S512x256 .bf16) (b : FVec Ideal S256x1024 .bf16) (p : Fin 512) (n : Fin 1024) :
    matmul dot_S512x256_S256x1024_S512x1024_1_0_0_1_n_n none a b (constant S512x1024 .f32 0x00000000#32) (ix2 p n)
      = ∑ k : Fin 256, a (ix2 p k) * b (ix2 k n) := by
  simp only [matmul]
  rw [Ideal.matmul_constant_zero_apply]
  refine (Equiv.sum_comp (contrEquiv1 dot_S512x256_S256x1024_S512x1024_1_0_0_1_n_n 256 rfl rfl).symm _).symm.trans ?_
  refine Finset.sum_congr rfl fun k _ => ?_
  have hk := contrEquiv1_symm_val dot_S512x256_S256x1024_S512x1024_1_0_0_1_n_n 256 rfl rfl k
  congr 1
  · refine congrArg a (funext fun ax => Fin.ext ?_)
    match ax with
    | ⟨0, _⟩ => exact lhsRow _ _
    | ⟨1, _⟩ => exact (lhsCol _ _).trans hk
  · refine congrArg b (funext fun ax => Fin.ext ?_)
    match ax with
    | ⟨0, _⟩ => exact (rhsRow _ _).trans hk
    | ⟨1, _⟩ => exact rhsCol _ _

/-- The upper 256 rows of the weights. -/
theorem wLo_apply (w : S512x1024.Idx → EReal) (k : Fin 256) (n : Fin 1024) :
    extractStridedSlice S256x1024 ![0, 0] w slices_S512x1024_o0_0_S256x1024 (ix2 k n) = w (ix2 (LstmCell.lo k) n) :=
  slice2_axis0_apply 0 w _ k n _ (by show k.val = 0 + k.val; omega)
/-- The lower 256 rows of the weights. -/
theorem wHi_apply (w : S512x1024.Idx → EReal) (k : Fin 256) (n : Fin 1024) :
    extractStridedSlice S256x1024 ![256, 0] w slices_S512x1024_o256_0_S256x1024 (ix2 k n) = w (ix2 (LstmCell.hi k) n) :=
  slice2_axis0_apply 256 w _ k n _ rfl

/-- Entry (p, n) of the pre-activation block is the split pre-activation of row p at column n. -/
theorem pre_apply (v0 v1 : Vec Ideal S512x256 .f32) (v3 : Vec Ideal S512x1024 .f32) (v12 : Vec Ideal S1x1024 .f32)
    (p : Fin 512) (n : Fin 1024) :
    k0_pay3 v0 v1 v3 v12 (ix2 p n)
      = LstmCell.preSplit (fun k => v0 (ix2 p k)) (fun k => v1 (ix2 p k)) (fun k n => v3 (ix2 k n))
          (fun n => v12 (ix2 (0 : Fin 1) n)) n := by
  unfold k0_pay3 LstmCell.preSplit
  simp only [addf_apply, prod_apply, truncf_apply, wLo_apply, wHi_apply, shapeCast_self, biasBcast_apply]

/-! ## The zoneout indicator -/

/-- The comparison, widened and converted signed, is 1 below the threshold and 0 otherwise. -/
theorem keep_apply (v : Vec Ideal S512x256 .f32) (i : S512x256.Idx) : k0_pay22 v i = LstmCell.keepBit (v i) :=
  congrFun (sitofp_extui_eq_uitofp (φ := .f32)
    (cmpf (F := Ideal) .olt v (broadcast S512x256 (Scalar.ofBits .f32 0x3F333333#32))) natLt_1_32) i
theorem keep'_apply (v : Vec Ideal S512x256 .f32) (i : S512x256.Idx) : k0_pay23 v i = LstmCell.keepBit (v i) :=
  congrFun (sitofp_extui_eq_uitofp (φ := .f32)
    (cmpf (F := Ideal) .olt v (broadcast S512x256 (Scalar.ofBits .f32 0x3F333333#32))) natLt_1_32) i

/-! ## The two output blocks -/

theorem zeroOffsets : (![0, 0] : Fin 2 → Nat) = fun _ => 0 := by
  funext a
  match a with
  | ⟨0, _⟩ => rfl
  | ⟨1, _⟩ => rfl

/-- Entry (p, q) of the hidden-state block the body leaves is the cell step's hidden output of row p. -/
theorem out11_apply (x0 : Vec Ideal S512x256 .f32) (x1 : Vec Ideal S512x256 .f32) (x2 : Vec Ideal S512x256 .f32) (x3 : Vec Ideal S512x1024 .f32) (x4 : Vec Ideal S1x1024 .f32) (x5 : Vec Ideal S1x1024 .f32) (x6 : Vec Ideal S1x1024 .f32) (x7 : Vec Ideal S1x256 .f32) (x8 : Vec Ideal S1x256 .f32) (x9 : Vec Ideal S512x256 .f32) (x10 : Vec Ideal S512x256 .f32) (p : Fin 512) (q : Fin 256) :
    out0_11 x0 x1 x2 x3 x4 x5 x6 x7 x8 x9 x10 (ix2 p q)
      = LstmCell.outH
          (LstmCell.preSplit (fun k => x0 (ix2 p k)) (fun k => x1 (ix2 p k)) (fun k n => x3 (ix2 k n)) (fun n => x4 (ix2 0 n)))
          (fun k => x1 (ix2 p k)) (fun k => x2 (ix2 p k)) (fun n => x5 (ix2 0 n)) (fun n => x6 (ix2 0 n))
          (fun k => x7 (ix2 0 k)) (fun k => x8 (ix2 0 k)) (x9 (ix2 p q)) q := by
  unfold out0_11
  rw [View.canon_unit_zero zeroOffsets]
  simp only [View.ld_unit_zero (S := S512x256) zeroOffsets, View.ld_unit_zero (S := S512x1024) zeroOffsets,
    View.ld_unit_zero (S := S1x1024) zeroOffsets, View.ld_unit_zero (S := S1x256) zeroOffsets]
  rw [rowCols0_eq x5, rowCols0_eq x6, rowCols1_eq x5, rowCols1_eq x6, rowCols2_eq x5, rowCols2_eq x6,
    rowCols3_eq x5, rowCols3_eq x6]
  simp only [k0_pay1, k0_pay2, k0_pay24, k0_pay25, k0_pay19, k0_pay20]
  simp only [gateI_eq, gateJ_eq, gateO_eq, keepOld_eq, cellLn_eq]
  simp only [addf_apply, mulf_apply, subf_apply, tanh_apply, logistic_apply, broadcast_apply, lnBlk_apply, keep_apply,
    keep'_apply, shapeCast_self, gateCols0_apply, gateCols1_apply, gateCols2_apply, gateCols3_apply, rowPart_apply, pre_apply]
  rfl

/-- Entry (p, q) of the cell-state block the body leaves is the cell step's cell output of row p. -/
theorem out12_apply (x0 : Vec Ideal S512x256 .f32) (x1 : Vec Ideal S512x256 .f32) (x2 : Vec Ideal S512x256 .f32) (x3 : Vec Ideal S512x1024 .f32) (x4 : Vec Ideal S1x1024 .f32) (x5 : Vec Ideal S1x1024 .f32) (x6 : Vec Ideal S1x1024 .f32) (x7 : Vec Ideal S1x256 .f32) (x8 : Vec Ideal S1x256 .f32) (x9 : Vec Ideal S512x256 .f32) (x10 : Vec Ideal S512x256 .f32) (p : Fin 512) (q : Fin 256) :
    out0_12 x0 x1 x2 x3 x4 x5 x6 x7 x8 x9 x10 (ix2 p q)
      = LstmCell.outC
          (LstmCell.preSplit (fun k => x0 (ix2 p k)) (fun k => x1 (ix2 p k)) (fun k n => x3 (ix2 k n)) (fun n => x4 (ix2 0 n)))
          (fun k => x2 (ix2 p k)) (fun n => x5 (ix2 0 n)) (fun n => x6 (ix2 0 n))
          (fun k => x7 (ix2 0 k)) (fun k => x8 (ix2 0 k)) (x10 (ix2 p q)) q := by
  unfold out0_12
  rw [View.canon_unit_zero zeroOffsets]
  simp only [View.ld_unit_zero (S := S512x256) zeroOffsets, View.ld_unit_zero (S := S512x1024) zeroOffsets,
    View.ld_unit_zero (S := S1x1024) zeroOffsets, View.ld_unit_zero (S := S1x256) zeroOffsets]
  rw [rowCols0_eq x5, rowCols0_eq x6, rowCols1_eq x5, rowCols1_eq x6, rowCols2_eq x5, rowCols2_eq x6]
  simp only [k0_pay1, k0_pay2, k0_pay24, k0_pay25, k0_pay19, k0_pay20]
  simp only [gateI_eq, gateJ_eq, gateO_eq, keepOld_eq, cellLn_eq]
  simp only [addf_apply, mulf_apply, subf_apply, tanh_apply, logistic_apply, broadcast_apply, lnBlk_apply, keep_apply,
    keep'_apply, shapeCast_self, gateCols0_apply, gateCols1_apply, gateCols2_apply, gateCols3_apply, rowPart_apply, pre_apply]
  rfl

end Cert.KernelIdeal.KerCell

end
-- ==== Proof.KerArr.lean ====
/-
  From blocks to the array, on the kernel side.

  The kernel walks the batch axis in 128 steps. At step t it sees rows 512 t … 512 t + 511 of x, h, c and of the two
  zoneout masks, the whole weight matrix, and the five per-feature vectors laid out as one-row matrices; it writes rows
  512 t … 512 t + 511 of the two results. This file reads each of those blocks back as entries of the launch contents
  (row p of the block at step t is row 512 t + p of the array; the one-row matrices at (0, n) are the vectors at n),
  concludes that what step t writes is block t of the whole-array cell step `LstmCell.GH` / `LstmCell.GC`, and, the
  128 blocks covering all 65536 rows, that the two result arrays end holding exactly those functions of the eleven
  arguments.
-/
import proofs.«178262_j70815420776934_1_alg».proof.Proof.KernelIdealValue
import proofs.«178262_j70815420776934_1_alg».proof.Proof.CellSpec
import proofs.«178262_j70815420776934_1_alg».proof.Proof.KerCell
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KerArr

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Which block each operand shows at step t

Seven operands move with the step: block (t, 0). Six stay put: block (0, 0). Each is a finite statement over the 128
steps. -/

theorem rows_x : ∀ t : Fin cfg0.N, win0_0.index t (0 : Fin 2) = t.val ∧ win0_0.index t (1 : Fin 2) = 0 :=
  (by decide +kernel : ∀ t : Fin grid0.N, _)

theorem rows_h : ∀ t : Fin cfg0.N, win0_1.index t (0 : Fin 2) = t.val ∧ win0_1.index t (1 : Fin 2) = 0 :=
  (by decide +kernel : ∀ t : Fin grid0.N, _)

theorem rows_c : ∀ t : Fin cfg0.N, win0_2.index t (0 : Fin 2) = t.val ∧ win0_2.index t (1 : Fin 2) = 0 :=
  (by decide +kernel : ∀ t : Fin grid0.N, _)

theorem fixed_W : ∀ t : Fin cfg0.N, win0_3.index t (0 : Fin 2) = 0 ∧ win0_3.index t (1 : Fin 2) = 0 :=
  (by decide +kernel : ∀ t : Fin grid0.N, _)

theorem fixed_bias : ∀ t : Fin cfg0.N, win0_4.index t (0 : Fin 2) = 0 ∧ win0_4.index t (1 : Fin 2) = 0 :=
  (by decide +kernel : ∀ t : Fin grid0.N, _)

theorem fixed_g1 : ∀ t : Fin cfg0.N, win0_5.index t (0 : Fin 2) = 0 ∧ win0_5.index t (1 : Fin 2) = 0 :=
  (by decide +kernel : ∀ t : Fin grid0.N, _)

theorem fixed_b1 : ∀ t : Fin cfg0.N, win0_6.index t (0 : Fin 2) = 0 ∧ win0_6.index t (1 : Fin 2) = 0 :=
  (by decide +kernel : ∀ t : Fin grid0.N, _)

theorem fixed_g2 : ∀ t : Fin cfg0.N, win0_7.index t (0 : Fin 2) = 0 ∧ win0_7.index t (1 : Fin 2) = 0 :=
  (by decide +kernel : ∀ t : Fin grid0.N, _)

theorem fixed_b2 : ∀ t : Fin cfg0.N, win0_8.index t (0 : Fin 2) = 0 ∧ win0_8.index t (1 : Fin 2) = 0 :=
  (by decide +kernel : ∀ t : Fin grid0.N, _)

theorem rows_maskH : ∀ t : Fin cfg0.N, win0_9.index t (0 : Fin 2) = t.val ∧ win0_9.index t (1 : Fin 2) = 0 :=
  (by decide +kernel : ∀ t : Fin grid0.N, _)

theorem rows_maskC : ∀ t : Fin cfg0.N, win0_10.index t (0 : Fin 2) = t.val ∧ win0_10.index t (1 : Fin 2) = 0 :=
  (by decide +kernel : ∀ t : Fin grid0.N, _)

theorem rows_outH : ∀ t : Fin cfg0.N, win0_11.index t (0 : Fin 2) = t.val ∧ win0_11.index t (1 : Fin 2) = 0 :=
  (by decide +kernel : ∀ t : Fin grid0.N, _)

theorem rows_outC : ∀ t : Fin cfg0.N, win0_12.index t (0 : Fin 2) = t.val ∧ win0_12.index t (1 : Fin 2) = 0 :=
  (by decide +kernel : ∀ t : Fin grid0.N, _)

/-! ## The moving blocks, read as rows of the launch contents

Entry (p, k) of a block at step t is entry (r, k) of the array whenever r = 512 t + p: a block's coordinate on an axis
is its block index times the block's extent plus the coordinate inside the block. -/

theorem x_block (c : Dev nD) (t : Fin cfg0.N) (p : Fin 512) (k : Fin 256) (r : Fin 65536) (hr : r.val = 512 * t.val + p.val) :
    (iblk m c 0 t : Vec Ideal S512x256 .f32) (ix2 p k)
      = (m ((c : Thread nD τ).loc main_arg0) : S65536x256.Idx → EReal) (ix2 r k) := by
  obtain ⟨e0, e1⟩ := rows_x t
  unfold iblk
  rw [View.read_apply]
  show V m c main_arg0 (((cfg0.win 0).blk t).view.emb (ix2 p k)) = m ((c : Thread nD τ).loc main_arg0) (ix2 r k)
  rw [V_main_arg0]
  refine congrArg (m ((c : Thread nD τ).loc main_arg0)) ?_
  funext a
  apply Fin.ext
  match a with
  | ⟨0, _⟩ => show win0_0.index t (0 : Fin 2) * 512 + 1 * p.val = r.val; omega
  | ⟨1, _⟩ => show win0_0.index t (1 : Fin 2) * 256 + 1 * k.val = k.val; omega

theorem h_block (c : Dev nD) (t : Fin cfg0.N) (p : Fin 512) (k : Fin 256) (r : Fin 65536) (hr : r.val = 512 * t.val + p.val) :
    (iblk m c 1 t : Vec Ideal S512x256 .f32) (ix2 p k)
      = (m ((c : Thread nD τ).loc main_arg1) : S65536x256.Idx → EReal) (ix2 r k) := by
  obtain ⟨e0, e1⟩ := rows_h t
  unfold iblk
  rw [View.read_apply]
  show V m c main_arg1 (((cfg0.win 1).blk t).view.emb (ix2 p k)) = m ((c : Thread nD τ).loc main_arg1) (ix2 r k)
  rw [V_main_arg1]
  refine congrArg (m ((c : Thread nD τ).loc main_arg1)) ?_
  funext a
  apply Fin.ext
  match a with
  | ⟨0, _⟩ => show win0_1.index t (0 : Fin 2) * 512 + 1 * p.val = r.val; omega
  | ⟨1, _⟩ => show win0_1.index t (1 : Fin 2) * 256 + 1 * k.val = k.val; omega

theorem c_block (c : Dev nD) (t : Fin cfg0.N) (p : Fin 512) (k : Fin 256) (r : Fin 65536) (hr : r.val = 512 * t.val + p.val) :
    (iblk m c 2 t : Vec Ideal S512x256 .f32) (ix2 p k)
      = (m ((c : Thread nD τ).loc main_arg2) : S65536x256.Idx → EReal) (ix2 r k) := by
  obtain ⟨e0, e1⟩ := rows_c t
  unfold iblk
  rw [View.read_apply]
  show V m c main_arg2 (((cfg0.win 2).blk t).view.emb (ix2 p k)) = m ((c : Thread nD τ).loc main_arg2) (ix2 r k)
  rw [V_main_arg2]
  refine congrArg (m ((c : Thread nD τ).loc main_arg2)) ?_
  funext a
  apply Fin.ext
  match a with
  | ⟨0, _⟩ => show win0_2.index t (0 : Fin 2) * 512 + 1 * p.val = r.val; omega
  | ⟨1, _⟩ => show win0_2.index t (1 : Fin 2) * 256 + 1 * k.val = k.val; omega

theorem maskH_block (c : Dev nD) (t : Fin cfg0.N) (p : Fin 512) (k : Fin 256) (r : Fin 65536) (hr : r.val = 512 * t.val + p.val) :
    (iblk m c 9 t : Vec Ideal S512x256 .f32) (ix2 p k)
      = (m ((c : Thread nD τ).loc main_arg9) : S65536x256.Idx → EReal) (ix2 r k) := by
  obtain ⟨e0, e1⟩ := rows_maskH t
  unfold iblk
  rw [View.read_apply]
  show V m c main_arg9 (((cfg0.win 9).blk t).view.emb (ix2 p k)) = m ((c : Thread nD τ).loc main_arg9) (ix2 r k)
  rw [V_main_arg9]
  refine congrArg (m ((c : Thread nD τ).loc main_arg9)) ?_
  funext a
  apply Fin.ext
  match a with
  | ⟨0, _⟩ => show win0_9.index t (0 : Fin 2) * 512 + 1 * p.val = r.val; omega
  | ⟨1, _⟩ => show win0_9.index t (1 : Fin 2) * 256 + 1 * k.val = k.val; omega

theorem maskC_block (c : Dev nD) (t : Fin cfg0.N) (p : Fin 512) (k : Fin 256) (r : Fin 65536) (hr : r.val = 512 * t.val + p.val) :
    (iblk m c 10 t : Vec Ideal S512x256 .f32) (ix2 p k)
      = (m ((c : Thread nD τ).loc main_arg10) : S65536x256.Idx → EReal) (ix2 r k) := by
  obtain ⟨e0, e1⟩ := rows_maskC t
  unfold iblk
  rw [View.read_apply]
  show V m c main_arg10 (((cfg0.win 10).blk t).view.emb (ix2 p k)) = m ((c : Thread nD τ).loc main_arg10) (ix2 r k)
  rw [V_main_arg10]
  refine congrArg (m ((c : Thread nD τ).loc main_arg10)) ?_
  funext a
  apply Fin.ext
  match a with
  | ⟨0, _⟩ => show win0_10.index t (0 : Fin 2) * 512 + 1 * p.val = r.val; omega
  | ⟨1, _⟩ => show win0_10.index t (1 : Fin 2) * 256 + 1 * k.val = k.val; omega

/-! ## The operands seen whole -/

/-- The weight block at any step is the weight matrix. -/
theorem W_block (c : Dev nD) (t : Fin cfg0.N) (k : Fin 512) (n : Fin 1024) :
    (iblk m c 3 t : Vec Ideal S512x1024 .f32) (ix2 k n)
      = (m ((c : Thread nD τ).loc main_arg3) : S512x1024.Idx → EReal) (ix2 k n) := by
  obtain ⟨e0, e1⟩ := fixed_W t
  unfold iblk
  rw [View.read_apply]
  show V m c main_arg3 (((cfg0.win 3).blk t).view.emb (ix2 k n)) = m ((c : Thread nD τ).loc main_arg3) (ix2 k n)
  rw [V_main_arg3]
  refine congrArg (m ((c : Thread nD τ).loc main_arg3)) ?_
  funext a
  apply Fin.ext
  match a with
  | ⟨0, _⟩ => show win0_3.index t (0 : Fin 2) * 512 + 1 * k.val = k.val; omega
  | ⟨1, _⟩ => show win0_3.index t (1 : Fin 2) * 1024 + 1 * n.val = n.val; omega

/-! The five per-feature vectors reach the kernel as one-row matrices: a vector of length a, relaid as 1 × a, holds at
(0, n) what the vector holds at n. -/

theorem bias_row (c : Dev nD) :
    (V m c main_v0 : S1x1024.Idx → EReal) = shapeCast S1x1024 (m ((c : Thread nD τ).loc main_arg4)) shapeCasts_S1024_S1x1024 := by
  dsimp only [Gen.V, Gen.hostOps0]; after_results; rfl

theorem g1_row (c : Dev nD) :
    (V m c main_v1 : S1x1024.Idx → EReal) = shapeCast S1x1024 (m ((c : Thread nD τ).loc main_arg5)) shapeCasts_S1024_S1x1024 := by
  dsimp only [Gen.V, Gen.hostOps0]; after_results; rfl

theorem b1_row (c : Dev nD) :
    (V m c main_v2 : S1x1024.Idx → EReal) = shapeCast S1x1024 (m ((c : Thread nD τ).loc main_arg6)) shapeCasts_S1024_S1x1024 := by
  dsimp only [Gen.V, Gen.hostOps0]; after_results; rfl

theorem g2_row (c : Dev nD) :
    (V m c main_v3 : S1x256.Idx → EReal) = shapeCast S1x256 (m ((c : Thread nD τ).loc main_arg7)) shapeCasts_S256_S1x256 := by
  dsimp only [Gen.V, Gen.hostOps0]; after_results; rfl

theorem b2_row (c : Dev nD) :
    (V m c main_v4 : S1x256.Idx → EReal) = shapeCast S1x256 (m ((c : Thread nD τ).loc main_arg8)) shapeCasts_S256_S1x256 := by
  dsimp only [Gen.V, Gen.hostOps0]; after_results; rfl

theorem bias_block (c : Dev nD) (t : Fin cfg0.N) (n : Fin 1024) :
    (iblk m c 4 t : Vec Ideal S1x1024 .f32) (ix2 0 n)
      = (m ((c : Thread nD τ).loc main_arg4) : S1024.Idx → EReal) (ix1 n) := by
  obtain ⟨e0, e1⟩ := fixed_bias t
  unfold iblk
  rw [View.read_apply]
  show (V m c main_v0 : S1x1024.Idx → EReal) (((cfg0.win 4).blk t).view.emb (ix2 0 n)) = m ((c : Thread nD τ).loc main_arg4) (ix1 n)
  have hidx : (((cfg0.win 4).blk t).view.emb (ix2 (0 : Fin 1) n) : S1x1024.Idx) = ix2 (0 : Fin 1) n := by
    funext a
    apply Fin.ext
    match a with
    | ⟨0, _⟩ => show win0_4.index t (0 : Fin 2) * 1 + 1 * 0 = 0; omega
    | ⟨1, _⟩ => show win0_4.index t (1 : Fin 2) * 1024 + 1 * n.val = n.val; omega
  refine (congrArg (V m c main_v0 : S1x1024.Idx → EReal) hidx).trans ?_
  rw [bias_row]
  exact shapeCast_a_1a_apply _ _ 0 n

theorem g1_block (c : Dev nD) (t : Fin cfg0.N) (n : Fin 1024) :
    (iblk m c 5 t : Vec Ideal S1x1024 .f32) (ix2 0 n)
      = (m ((c : Thread nD τ).loc main_arg5) : S1024.Idx → EReal) (ix1 n) := by
  obtain ⟨e0, e1⟩ := fixed_g1 t
  unfold iblk
  rw [View.read_apply]
  show (V m c main_v1 : S1x1024.Idx → EReal) (((cfg0.win 5).blk t).view.emb (ix2 0 n)) = m ((c : Thread nD τ).loc main_arg5) (ix1 n)
  have hidx : (((cfg0.win 5).blk t).view.emb (ix2 (0 : Fin 1) n) : S1x1024.Idx) = ix2 (0 : Fin 1) n := by
    funext a
    apply Fin.ext
    match a with
    | ⟨0, _⟩ => show win0_5.index t (0 : Fin 2) * 1 + 1 * 0 = 0; omega
    | ⟨1, _⟩ => show win0_5.index t (1 : Fin 2) * 1024 + 1 * n.val = n.val; omega
  refine (congrArg (V m c main_v1 : S1x1024.Idx → EReal) hidx).trans ?_
  rw [g1_row]
  exact shapeCast_a_1a_apply _ _ 0 n

theorem b1_block (c : Dev nD) (t : Fin cfg0.N) (n : Fin 1024) :
    (iblk m c 6 t : Vec Ideal S1x1024 .f32) (ix2 0 n)
      = (m ((c : Thread nD τ).loc main_arg6) : S1024.Idx → EReal) (ix1 n) := by
  obtain ⟨e0, e1⟩ := fixed_b1 t
  unfold iblk
  rw [View.read_apply]
  show (V m c main_v2 : S1x1024.Idx → EReal) (((cfg0.win 6).blk t).view.emb (ix2 0 n)) = m ((c : Thread nD τ).loc main_arg6) (ix1 n)
  have hidx : (((cfg0.win 6).blk t).view.emb (ix2 (0 : Fin 1) n) : S1x1024.Idx) = ix2 (0 : Fin 1) n := by
    funext a
    apply Fin.ext
    match a with
    | ⟨0, _⟩ => show win0_6.index t (0 : Fin 2) * 1 + 1 * 0 = 0; omega
    | ⟨1, _⟩ => show win0_6.index t (1 : Fin 2) * 1024 + 1 * n.val = n.val; omega
  refine (congrArg (V m c main_v2 : S1x1024.Idx → EReal) hidx).trans ?_
  rw [b1_row]
  exact shapeCast_a_1a_apply _ _ 0 n

theorem g2_block (c : Dev nD) (t : Fin cfg0.N) (k : Fin 256) :
    (iblk m c 7 t : Vec Ideal S1x256 .f32) (ix2 0 k)
      = (m ((c : Thread nD τ).loc main_arg7) : S256.Idx → EReal) (ix1 k) := by
  obtain ⟨e0, e1⟩ := fixed_g2 t
  unfold iblk
  rw [View.read_apply]
  show (V m c main_v3 : S1x256.Idx → EReal) (((cfg0.win 7).blk t).view.emb (ix2 0 k)) = m ((c : Thread nD τ).loc main_arg7) (ix1 k)
  have hidx : (((cfg0.win 7).blk t).view.emb (ix2 (0 : Fin 1) k) : S1x256.Idx) = ix2 (0 : Fin 1) k := by
    funext a
    apply Fin.ext
    match a with
    | ⟨0, _⟩ => show win0_7.index t (0 : Fin 2) * 1 + 1 * 0 = 0; omega
    | ⟨1, _⟩ => show win0_7.index t (1 : Fin 2) * 256 + 1 * k.val = k.val; omega
  refine (congrArg (V m c main_v3 : S1x256.Idx → EReal) hidx).trans ?_
  rw [g2_row]
  exact shapeCast_a_1a_apply _ _ 0 k

theorem b2_block (c : Dev nD) (t : Fin cfg0.N) (k : Fin 256) :
    (iblk m c 8 t : Vec Ideal S1x256 .f32) (ix2 0 k)
      = (m ((c : Thread nD τ).loc main_arg8) : S256.Idx → EReal) (ix1 k) := by
  obtain ⟨e0, e1⟩ := fixed_b2 t
  unfold iblk
  rw [View.read_apply]
  show (V m c main_v4 : S1x256.Idx → EReal) (((cfg0.win 8).blk t).view.emb (ix2 0 k)) = m ((c : Thread nD τ).loc main_arg8) (ix1 k)
  have hidx : (((cfg0.win 8).blk t).view.emb (ix2 (0 : Fin 1) k) : S1x256.Idx) = ix2 (0 : Fin 1) k := by
    funext a
    apply Fin.ext
    match a with
    | ⟨0, _⟩ => show win0_8.index t (0 : Fin 2) * 1 + 1 * 0 = 0; omega
    | ⟨1, _⟩ => show win0_8.index t (1 : Fin 2) * 256 + 1 * k.val = k.val; omega
  refine (congrArg (V m c main_v4 : S1x256.Idx → EReal) hidx).trans ?_
  rw [b2_row]
  exact shapeCast_a_1a_apply _ _ 0 k

/-! ## One entry of a written block is one entry of the whole-array cell step

Stated over any eleven blocks and any ten arrays that agree where the cell step of row r looks: then entry (p, q) of
the block the body leaves is entry (r, q) of the whole-array result. -/

theorem hidden_entry (x0 x1 x2 : Vec Ideal S512x256 .f32) (x3 : Vec Ideal S512x1024 .f32) (x4 x5 x6 : Vec Ideal S1x1024 .f32)
    (x7 x8 : Vec Ideal S1x256 .f32) (x9 x10 : Vec Ideal S512x256 .f32)
    (X H C : LstmCell.SB.Idx → EReal) (W : LstmCell.SW.Idx → EReal) (B G1 B1 : LstmCell.S4H.Idx → EReal)
    (G2 B2 : LstmCell.SH.Idx → EReal) (MH : LstmCell.SB.Idx → EReal)
    (p : Fin 512) (q : Fin 256) (r : Fin 65536)
    (h0 : ∀ k : Fin 256, x0 (ix2 p k) = X (ix2 r k))
    (h1 : ∀ k : Fin 256, x1 (ix2 p k) = H (ix2 r k))
    (h2 : ∀ k : Fin 256, x2 (ix2 p k) = C (ix2 r k))
    (h3 : ∀ (k : Fin 512) (n : Fin 1024), x3 (ix2 k n) = W (ix2 k n))
    (h4 : ∀ n : Fin 1024, x4 (ix2 0 n) = B (ix1 n))
    (h5 : ∀ n : Fin 1024, x5 (ix2 0 n) = G1 (ix1 n))
    (h6 : ∀ n : Fin 1024, x6 (ix2 0 n) = B1 (ix1 n))
    (h7 : ∀ k : Fin 256, x7 (ix2 0 k) = G2 (ix1 k))
    (h8 : ∀ k : Fin 256, x8 (ix2 0 k) = B2 (ix1 k))
    (h9 : x9 (ix2 p q) = MH (ix2 r q)) :
    out0_11 x0 x1 x2 x3 x4 x5 x6 x7 x8 x9 x10 (ix2 p q) = LstmCell.GH X H C W B G1 B1 G2 B2 MH (ix2 r q) := by
  rw [KerCell.out11_apply]
  show _ = LstmCell.outH (LstmCell.preOf X H W B r) (fun k => H (ix2 r k)) (fun k => C (ix2 r k)) (fun n => G1 (ix1 n))
    (fun n => B1 (ix1 n)) (fun k => G2 (ix1 k)) (fun k => B2 (ix1 k)) (MH (ix2 r q)) q
  unfold LstmCell.preOf
  simp only [h0, h1, h2, h3, h4, h5, h6, h7, h8, h9]

theorem cell_entry (x0 x1 x2 : Vec Ideal S512x256 .f32) (x3 : Vec Ideal S512x1024 .f32) (x4 x5 x6 : Vec Ideal S1x1024 .f32)
    (x7 x8 : Vec Ideal S1x256 .f32) (x9 x10 : Vec Ideal S512x256 .f32)
    (X H C : LstmCell.SB.Idx → EReal) (W : LstmCell.SW.Idx → EReal) (B G1 B1 : LstmCell.S4H.Idx → EReal)
    (G2 B2 : LstmCell.SH.Idx → EReal) (MC : LstmCell.SB.Idx → EReal)
    (p : Fin 512) (q : Fin 256) (r : Fin 65536)
    (h0 : ∀ k : Fin 256, x0 (ix2 p k) = X (ix2 r k))
    (h1 : ∀ k : Fin 256, x1 (ix2 p k) = H (ix2 r k))
    (h2 : ∀ k : Fin 256, x2 (ix2 p k) = C (ix2 r k))
    (h3 : ∀ (k : Fin 512) (n : Fin 1024), x3 (ix2 k n) = W (ix2 k n))
    (h4 : ∀ n : Fin 1024, x4 (ix2 0 n) = B (ix1 n))
    (h5 : ∀ n : Fin 1024, x5 (ix2 0 n) = G1 (ix1 n))
    (h6 : ∀ n : Fin 1024, x6 (ix2 0 n) = B1 (ix1 n))
    (h7 : ∀ k : Fin 256, x7 (ix2 0 k) = G2 (ix1 k))
    (h8 : ∀ k : Fin 256, x8 (ix2 0 k) = B2 (ix1 k))
    (h10 : x10 (ix2 p q) = MC (ix2 r q)) :
    out0_12 x0 x1 x2 x3 x4 x5 x6 x7 x8 x9 x10 (ix2 p q) = LstmCell.GC X H C W B G1 B1 G2 B2 MC (ix2 r q) := by
  rw [KerCell.out12_apply]
  show _ = LstmCell.outC (LstmCell.preOf X H W B r) (fun k => C (ix2 r k)) (fun n => G1 (ix1 n))
    (fun n => B1 (ix1 n)) (fun k => G2 (ix1 k)) (fun k => B2 (ix1 k)) (MC (ix2 r q)) q
  unfold LstmCell.preOf
  simp only [h0, h1, h2, h3, h4, h5, h6, h7, h8, h10]

/-! ## What step t writes -/

/-- The hidden result of the launch contents. -/
abbrev hiddenOf (c : Dev nD) : LstmCell.SB.Idx → EReal :=
  LstmCell.GH (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The cell result of the launch contents. -/
abbrev cellStateOf (c : Dev nD) : LstmCell.SB.Idx → EReal :=
  LstmCell.GC (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg10))

/-- Step t writes rows 512 t … 512 t + 511 of the hidden result. -/
theorem hidden_written (c : Dev nD) (t : Fin cfg0.N) :
    (dats m 0 c).flushed 11 t = ((cfg0.win 11).blk t).view.read (Elt Ideal) (hiddenOf m c) := by
  rw [Cert.KernelIdeal.ValueP.flushed11]
  funext j
  have hN : grid0.N = 128 := N_0
  have ht : t.val < grid0.N := t.isLt
  obtain ⟨p, hpv⟩ : ∃ p : Fin 512, p.val = (j 0).val := ⟨⟨(j 0).val, (j 0).isLt⟩, rfl⟩
  obtain ⟨q, hqv⟩ : ∃ q : Fin 256, q.val = (j 1).val := ⟨⟨(j 1).val, (j 1).isLt⟩, rfl⟩
  obtain ⟨r, hrv⟩ : ∃ r : Fin 65536, r.val = 512 * t.val + p.val := ⟨⟨512 * t.val + p.val, by omega⟩, rfl⟩
  obtain ⟨e0, e1⟩ := rows_outH t
  have hj : ((cfg0.win 11).xinj (grid0.coords t) j : S512x256.Idx) = ix2 p q := by
    funext a
    apply Fin.ext
    match a with
    | ⟨0, _⟩ => exact hpv.symm
    | ⟨1, _⟩ => exact hqv.symm
  have hi : ((((cfg0.win 11).blk t).view.emb j) : S65536x256.Idx) = ix2 r q := by
    funext a
    apply Fin.ext
    match a with
    | ⟨0, _⟩ => show win0_11.index t (0 : Fin 2) * 512 + 1 * (j 0).val = r.val; omega
    | ⟨1, _⟩ => show win0_11.index t (1 : Fin 2) * 256 + 1 * (j 1).val = q.val; omega
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) ((cfg0.win 11).xinj (grid0.coords t) j)
    = hiddenOf m c (((cfg0.win 11).blk t).view.emb j)
  refine ((congrArg (out0_11 (iblk m c 0 t) (iblk m c 1 t) (iblk m c 2 t) (iblk m c 3 t) (iblk m c 4 t) (iblk m c 5 t)
    (iblk m c 6 t) (iblk m c 7 t) (iblk m c 8 t) (iblk m c 9 t) (iblk m c 10 t)) hj).trans ?_).trans
    (congrArg (hiddenOf m c) hi).symm
  exact hidden_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) p q r
    (fun k => x_block m c t p k r hrv) (fun k => h_block m c t p k r hrv) (fun k => c_block m c t p k r hrv)
    (fun k n => W_block m c t k n) (fun n => bias_block m c t n) (fun n => g1_block m c t n) (fun n => b1_block m c t n)
    (fun k => g2_block m c t k) (fun k => b2_block m c t k) (maskH_block m c t p q r hrv)

/-- Step t writes rows 512 t … 512 t + 511 of the cell result. -/
theorem cell_written (c : Dev nD) (t : Fin cfg0.N) :
    (dats m 0 c).flushed 12 t = ((cfg0.win 12).blk t).view.read (Elt Ideal) (cellStateOf m c) := by
  rw [Cert.KernelIdeal.ValueP.flushed12]
  funext j
  have hN : grid0.N = 128 := N_0
  have ht : t.val < grid0.N := t.isLt
  obtain ⟨p, hpv⟩ : ∃ p : Fin 512, p.val = (j 0).val := ⟨⟨(j 0).val, (j 0).isLt⟩, rfl⟩
  obtain ⟨q, hqv⟩ : ∃ q : Fin 256, q.val = (j 1).val := ⟨⟨(j 1).val, (j 1).isLt⟩, rfl⟩
  obtain ⟨r, hrv⟩ : ∃ r : Fin 65536, r.val = 512 * t.val + p.val := ⟨⟨512 * t.val + p.val, by omega⟩, rfl⟩
  obtain ⟨e0, e1⟩ := rows_outC t
  have hj : ((cfg0.win 12).xinj (grid0.coords t) j : S512x256.Idx) = ix2 p q := by
    funext a
    apply Fin.ext
    match a with
    | ⟨0, _⟩ => exact hpv.symm
    | ⟨1, _⟩ => exact hqv.symm
  have hi : ((((cfg0.win 12).blk t).view.emb j) : S65536x256.Idx) = ix2 r q := by
    funext a
    apply Fin.ext
    match a with
    | ⟨0, _⟩ => show win0_12.index t (0 : Fin 2) * 512 + 1 * (j 0).val = r.val; omega
    | ⟨1, _⟩ => show win0_12.index t (1 : Fin 2) * 256 + 1 * (j 1).val = q.val; omega
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) ((cfg0.win 12).xinj (grid0.coords t) j)
    = cellStateOf m c (((cfg0.win 12).blk t).view.emb j)
  refine ((congrArg (out0_12 (iblk m c 0 t) (iblk m c 1 t) (iblk m c 2 t) (iblk m c 3 t) (iblk m c 4 t) (iblk m c 5 t)
    (iblk m c 6 t) (iblk m c 7 t) (iblk m c 8 t) (iblk m c 9 t) (iblk m c 10 t)) hj).trans ?_).trans
    (congrArg (cellStateOf m c) hi).symm
  exact cell_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg10)) p q r
    (fun k => x_block m c t p k r hrv) (fun k => h_block m c t p k r hrv) (fun k => c_block m c t p k r hrv)
    (fun k n => W_block m c t k n) (fun n => bias_block m c t n) (fun n => g1_block m c t n) (fun n => b1_block m c t n)
    (fun k => g2_block m c t k) (fun k => b2_block m c t k) (maskC_block m c t p q r hrv)

/-! ## The blocks cover the arrays

An index lies in step t's block exactly when each coordinate lies in the block's range on its axis; row r lies in the
block of step r / 512, and every column lies in every block. -/

theorem mem_hidden_block (t : Fin cfg0.N) (i : S65536x256.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v5_0).slice (win0_11.rect t)).set ↔ _
  rw [View.set_slice_whole, Rect.mem_set_unit]
  exact Iff.rfl

theorem mem_cell_block (t : Fin cfg0.N) (i : S65536x256.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v5_1).slice (win0_12.rect t)).set ↔ _
  rw [View.set_slice_whole, Rect.mem_set_unit]
  exact Iff.rfl

theorem hidden_covered (i : S65536x256.Idx) :
    ∃ t : Fin cfg0.N, (cfg0.win 11).flush t = true ∧ i ∈ ((cfg0.win 11).blk t).view.set := by
  have hi0 : (i 0).val < 65536 := (i 0).isLt
  have hi1 : (i 1).val < 256 := (i 1).isLt
  have hN : grid0.N = 128 := N_0
  have hlt : (i 0).val / 512 < cfg0.N := by show _ < grid0.N; omega
  obtain ⟨e0, e1⟩ := rows_outH ⟨(i 0).val / 512, hlt⟩
  refine ⟨⟨(i 0).val / 512, hlt⟩, flush0_11 _, ?_⟩
  rw [mem_hidden_block]
  intro a
  match a with
  | ⟨0, _⟩ =>
    show win0_11.index ⟨(i 0).val / 512, hlt⟩ (0 : Fin 2) * 512 ≤ (i 0).val ∧ (i 0).val < win0_11.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_11.index ⟨(i 0).val / 512, hlt⟩ (1 : Fin 2) * 256 ≤ (i 1).val ∧ (i 1).val < win0_11.index ⟨(i 0).val / 512, hlt⟩ (1 : Fin 2) * 256 + 256
    omega

theorem cell_covered (i : S65536x256.Idx) :
    ∃ t : Fin cfg0.N, (cfg0.win 12).flush t = true ∧ i ∈ ((cfg0.win 12).blk t).view.set := by
  have hi0 : (i 0).val < 65536 := (i 0).isLt
  have hi1 : (i 1).val < 256 := (i 1).isLt
  have hN : grid0.N = 128 := N_0
  have hlt : (i 0).val / 512 < cfg0.N := by show _ < grid0.N; omega
  obtain ⟨e0, e1⟩ := rows_outC ⟨(i 0).val / 512, hlt⟩
  refine ⟨⟨(i 0).val / 512, hlt⟩, flush0_12 _, ?_⟩
  rw [mem_cell_block]
  intro a
  match a with
  | ⟨0, _⟩ =>
    show win0_12.index ⟨(i 0).val / 512, hlt⟩ (0 : Fin 2) * 512 ≤ (i 0).val ∧ (i 0).val < win0_12.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_12.index ⟨(i 0).val / 512, hlt⟩ (1 : Fin 2) * 256 ≤ (i 1).val ∧ (i 1).val < win0_12.index ⟨(i 0).val / 512, hlt⟩ (1 : Fin 2) * 256 + 256
    omega

/-! ## The arrays after the last step, and the run -/

theorem hidden_final (c : Dev nD) : (dats m 0 c).arrAt 11 cfg0.N = hiddenOf m c :=
  (dats m 0 c).arrAt_eq_of_cover 11 (hiddenOf m c) (fun t _ => hidden_written m c t) hidden_covered

theorem cell_final (c : Dev nD) : (dats m 0 c).arrAt 12 cfg0.N = cellStateOf m c :=
  (dats m 0 c).arrAt_eq_of_cover 12 (cellStateOf m c) (fun t _ => cell_written m c t) cell_covered

/-- The idealized kernel's run ends with the hidden result array at `LstmCell.GH` and the cell result array at
    `LstmCell.GC` of the launch contents of the arguments, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5_0) = LstmCell.GH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v5_1) = LstmCell.GC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono
    (fun r h c => ⟨(h c).1.trans (hidden_final m c), (h c).2.1.trans (cell_final m c), (h c).2.2⟩)
    (Cert.KernelIdeal.ValueP.run_blocks (F := Ideal) m ρ)

end Cert.KernelIdeal.KerArr

end
-- ==== Proof.RefCell.lean ====
/-
  The reference program computes the LayerNorm-LSTM cell step of the specification, whole array by whole array.

  Its text works on arrays of 65536 rows: the row blocks x and h are laid side by side into 512 columns and multiplied by
  the 512 × 1024 weights, the bias is added along the columns, the 1024 columns are regrouped as 4 blocks of 256, each
  block is normalized (mean and variance by sums over the block divided by the float 256, the float nearest 1e-5 added,
  reciprocal square root), the result is laid out as 1024 columns again, scaled and shifted by the gain and bias
  vectors, and cut into the four gates; the candidate cell state is formed from the gates and the old cell state,
  normalized the same way as one block per row, and the two results mix the new states with the old ones by the zoneout
  indicators.

  Read at one entry (r, q), every operation of that text is an operation on entries of row r alone: a product entry is a
  sum over the 512 concatenated positions, a regrouping moves column 256 g + k to entry k of block g and back, a
  broadcast repeats a per-row, per-block or per-feature value, a reduction is a sum over 256 entries. The first section
  states each of these once, at the shapes of this program. The next two identify the named intermediate arrays, in
  the order the program computes them, with the row-level functions of the specification: pre-activations, block mean,
  deviation, gate, candidate state, its normalization, the indicators. The last section concludes for the run.

  One law is used: the sum over the 512 concatenated positions is the sum of its two halves
  (`LstmCell.preCat_eq_preSplit`). One literal is evaluated: the pattern of 1.0 inside the logistic function, which the
  reference writes 1 / (1 + exp (−x)) with that pattern for both ones. Every other literal is the same pattern on both
  sides and stays a pattern.
-/
import proofs.«178262_j70815420776934_1_alg».proof.Proof.Gen.ReferenceIdeal.Run
import proofs.«178262_j70815420776934_1_alg».proof.Proof.CellSpec
import Idealize.ShloMosaic.PureOps.Ideal.Laws
import Idealize.ShloMosaic.Lib.ValueLayout
import Idealize.ShloMosaic.Lib.IdealHost
import Idealize.ShloMosaic.Lib.StackMember

noncomputable section

namespace Cert.ReferenceIdeal.RefCell

open Cert.ReferenceIdeal Cert.ReferenceIdeal.Gen Idealize.ShloMosaic Idealize.ShloMosaic.TcCoe Idealize.SL.Sem Idealize.ShloMosaic.ValueIdx

/-! ## Each kind of operation of the program, read at an index given by coordinates -/

section Reads
variable {α : Type}

/-- The program's product record is the plain rows-by-columns one. -/
theorem dot_eq : dot_S65536x512_S512x1024_S65536x1024_1_0_0_1_n_n = DotDims.plain 65536 512 1024 := rfl

/-- The product at (r, n) is the sum over the 512 contracted positions. -/
theorem dot_at (A : FVec Ideal S65536x512 .f32) (B : FVec Ideal S512x1024 .f32) (r : Fin 65536) (n : Fin 1024) :
    Host.dotGeneral (F := Ideal) dot_S65536x512_S512x1024_S65536x1024_1_0_0_1_n_n none A B (ix2 r n)
      = ∑ c : Fin 512, A (ix2 r c) * B (ix2 c n) :=
  StackMember.dotGeneral_plain_apply none A B r n

/-- The concatenation along the columns at (r, k) is the left array below column 256 and the right one from there on. -/
theorem cat_at (a b : S65536x256.Idx → EReal) (h : Shape.Concatenates [S65536x256, S65536x256] S65536x512 1)
    (r : Fin 65536) (k : Fin 512) :
    concatenate S65536x512 1 [⟨S65536x256, a⟩, ⟨S65536x256, b⟩] h (ix2 r k)
      = LstmCell.cat (fun q => a (ix2 r q)) (fun q => b (ix2 r q)) k := by
  unfold LstmCell.cat
  by_cases hk : k.val < 256
  · rw [dif_pos hk]
    exact concatenate_pair_apply_left 1 a b h (ix2 r k) rfl (ix2 r ⟨k.val, hk⟩) (fun c => by
      match c with
      | ⟨0, _⟩ => rfl
      | ⟨1, _⟩ => rfl)
  · rw [dif_neg hk]
    exact concatenate_pair_apply_right 1 a b h (ix2 r k) rfl rfl (ix2 r ⟨k.val - 256, by omega⟩) (fun c hc => by
      match c, hc with
      | ⟨0, _⟩, _ => rfl
      | ⟨1, _⟩, hc => exact absurd rfl hc) (by
      show k.val - 256 + 256 = k.val
      omega)

/-- A 1024-vector laid along the columns of every row. -/
theorem bvec1024 (v : S1024.Idx → α) (h1 : S1024.BroadcastsInDim S1x1024 (![1] : Fin 1 → Fin S1x1024.rank))
    (h2 : S1x1024.BroadcastsInDim S65536x1024 (![0, 1] : Fin 2 → Fin S65536x1024.rank)) (r : Fin 65536) (n : Fin 1024) :
    broadcastInDim S65536x1024 ![0, 1] h2 (broadcastInDim S1x1024 ![1] h1 v) (ix2 r n) = v (ix1 n) := by
  refine (broadcastInDim_apply _ h2 _ (ix2 r n) (ix2 (0 : Fin 1) n) (fun a => ?_)).trans ?_
  · match a with
    | ⟨0, _⟩ => rfl
    | ⟨1, _⟩ => rfl
  · exact broadcastInDim_apply _ h1 v (ix2 (0 : Fin 1) n) (ix1 n) (fun a => by match a with | ⟨0, _⟩ => rfl)

/-- A 256-vector laid along the columns of every row. -/
theorem bvec256 (v : S256.Idx → α) (h1 : S256.BroadcastsInDim S1x256 (![1] : Fin 1 → Fin S1x256.rank))
    (h2 : S1x256.BroadcastsInDim S65536x256 (![0, 1] : Fin 2 → Fin S65536x256.rank)) (r : Fin 65536) (q : Fin 256) :
    broadcastInDim S65536x256 ![0, 1] h2 (broadcastInDim S1x256 ![1] h1 v) (ix2 r q) = v (ix1 q) := by
  refine (broadcastInDim_apply _ h2 _ (ix2 r q) (ix2 (0 : Fin 1) q) (fun a => ?_)).trans ?_
  · match a with
    | ⟨0, _⟩ => rfl
    | ⟨1, _⟩ => rfl
  · exact broadcastInDim_apply _ h1 v (ix2 (0 : Fin 1) q) (ix1 q) (fun a => by match a with | ⟨0, _⟩ => rfl)

/-- A per-(row, block) value repeated along the block's 256 entries. -/
theorem bkeep4 (x : S65536x4x1.Idx → α) (h : S65536x4x1.BroadcastsInDim S65536x4x256 (![0, 1, 2] : Fin 3 → Fin S65536x4x256.rank))
    (r : Fin 65536) (g : Fin 4) (k : Fin 256) :
    broadcastInDim S65536x4x256 ![0, 1, 2] h x (ix3 r g k) = x (ix3 r g (0 : Fin 1)) :=
  broadcastInDim_apply _ h x _ _ (fun a => by
    match a with
    | ⟨0, _⟩ => rfl
    | ⟨1, _⟩ => rfl
    | ⟨2, _⟩ => rfl)

/-- A per-(row, block) value given a trailing unit axis. -/
theorem bunit4 (x : S65536x4.Idx → α) (h : S65536x4.BroadcastsInDim S65536x4x1 (![0, 1] : Fin 2 → Fin S65536x4x1.rank))
    (r : Fin 65536) (g : Fin 4) (u : Fin 1) :
    broadcastInDim S65536x4x1 ![0, 1] h x (ix3 r g u) = x (ix2 r g) :=
  broadcastInDim_apply _ h x _ _ (fun a => by
    match a with
    | ⟨0, _⟩ => rfl
    | ⟨1, _⟩ => rfl)

/-- A per-row value repeated along the row's 256 entries. -/
theorem bkeep1 (x : S65536x1x1.Idx → α) (h : S65536x1x1.BroadcastsInDim S65536x1x256 (![0, 1, 2] : Fin 3 → Fin S65536x1x256.rank))
    (r : Fin 65536) (u : Fin 1) (q : Fin 256) :
    broadcastInDim S65536x1x256 ![0, 1, 2] h x (ix3 r u q) = x (ix3 r (0 : Fin 1) (0 : Fin 1)) :=
  broadcastInDim_apply _ h x _ _ (fun a => by
    match a with
    | ⟨0, _⟩ => rfl
    | ⟨1, _⟩ => rfl
    | ⟨2, _⟩ => rfl)

/-- A per-row value given a trailing unit axis. -/
theorem bunit1 (x : S65536x1.Idx → α) (h : S65536x1.BroadcastsInDim S65536x1x1 (![0, 1] : Fin 2 → Fin S65536x1x1.rank))
    (r : Fin 65536) (u u' : Fin 1) :
    broadcastInDim S65536x1x1 ![0, 1] h x (ix3 r u u') = x (ix2 r (0 : Fin 1)) :=
  broadcastInDim_apply _ h x _ _ (fun a => by
    match a with
    | ⟨0, _⟩ => rfl
    | ⟨1, _⟩ => rfl)

/-- Column n = 256 g + k of a 1024-wide row is entry k of block g. -/
theorem cast_to3 (x : S65536x1024.Idx → α) (h : S65536x1024.ShapeCasts S65536x4x256)
    (r : Fin 65536) (g : Fin 4) (k : Fin 256) (n : Fin 1024) (hn : n.val = 256 * g.val + k.val) :
    shapeCast S65536x4x256 x h (ix3 r g k) = x (ix2 r n) :=
  shapeCast_apply x h _ _ (by
    rw [Shape.rowMajor_val_two, Shape.rowMajor_val_three]
    show r.val * 1024 + n.val = (r.val * 4 + g.val) * 256 + k.val
    omega)

/-- … and back. -/
theorem cast_to2 (x : S65536x4x256.Idx → α) (h : S65536x4x256.ShapeCasts S65536x1024)
    (r : Fin 65536) (g : Fin 4) (k : Fin 256) (n : Fin 1024) (hn : n.val = 256 * g.val + k.val) :
    shapeCast S65536x1024 x h (ix2 r n) = x (ix3 r g k) :=
  shapeCast_apply x h _ _ (by
    rw [Shape.rowMajor_val_two, Shape.rowMajor_val_three]
    show (r.val * 4 + g.val) * 256 + k.val = r.val * 1024 + n.val
    omega)

/-- A middle unit axis added to a [65536, 256] array … -/
theorem cast_add1 (x : S65536x256.Idx → α) (h : S65536x256.ShapeCasts S65536x1x256)
    (r : Fin 65536) (u : Fin 1) (q : Fin 256) :
    shapeCast S65536x1x256 x h (ix3 r u q) = x (ix2 r q) :=
  shapeCast_apply x h _ _ (by
    have hu : u.val = 0 := by omega
    rw [Shape.rowMajor_val_two, Shape.rowMajor_val_three]
    show r.val * 256 + q.val = (r.val * 1 + u.val) * 256 + q.val
    omega)

/-- … and dropped again. -/
theorem cast_drop1 (x : S65536x1x256.Idx → α) (h : S65536x1x256.ShapeCasts S65536x256)
    (r : Fin 65536) (q : Fin 256) :
    shapeCast S65536x256 x h (ix2 r q) = x (ix3 r (0 : Fin 1) q) :=
  shapeCast_apply x h _ _ (by
    rw [Shape.rowMajor_val_two, Shape.rowMajor_val_three]
    show (r.val * 1 + 0) * 256 + q.val = r.val * 256 + q.val
    omega)

theorem red4 : Shape.Reduces S65536x4x256 [2] S65536x4 := by decide
theorem red1 : Shape.Reduces S65536x1x256 [2] S65536x1 := by decide

/-- The sum over a block's 256 entries, from the zero pattern. -/
theorem sum4_at (Y : FVec Ideal S65536x4x256 .f32) (h : S65536x4x256.ReducesTo [2] S65536x4) (hu : 0 < S_.numel)
    (r : Fin 65536) (g : Fin 4) :
    Host.reduceAdd Y (constant (F := Ideal) S_ .f32 0x00000000#32) h hu (ix2 r g) = ∑ k : Fin 256, Y (ix3 r g k) := by
  rw [hostReduceAdd_apply, Ideal.hostReduceAdd_single h red4, constant_apply, Ideal.ofBits_zero_f32, zero_add]
  refine Finset.sum_congr rfl fun k _ => congrArg Y (funext fun a => Fin.ext ?_)
  match a with
  | ⟨0, _⟩ => rfl
  | ⟨1, _⟩ => rfl
  | ⟨2, _⟩ => rfl

/-- The sum over a row's 256 entries, from the zero pattern. -/
theorem sum1_at (Y : FVec Ideal S65536x1x256 .f32) (h : S65536x1x256.ReducesTo [2] S65536x1) (hu : 0 < S_.numel)
    (r : Fin 65536) (u : Fin 1) :
    Host.reduceAdd Y (constant (F := Ideal) S_ .f32 0x00000000#32) h hu (ix2 r u) = ∑ k : Fin 256, Y (ix3 r u k) := by
  rw [hostReduceAdd_apply, Ideal.hostReduceAdd_single h red1, constant_apply, Ideal.ofBits_zero_f32, zero_add]
  refine Finset.sum_congr rfl fun k _ => congrArg Y (funext fun a => Fin.ext ?_)
  match a with
  | ⟨0, _⟩ => rfl
  | ⟨1, _⟩ => rfl
  | ⟨2, _⟩ => rfl

/-- The host's one-operand functions at an index. -/
theorem rsqrt_at {s : Shape} (x : FVec Ideal s .f32) (i : s.Idx) : Host.rsqrt x i = Ideal.rsqrt (x i) := rfl
theorem exp_at {s : Shape} (x : FVec Ideal s .f32) (i : s.Idx) : Host.exp x i = Ideal.exp (x i) := rfl
theorem tanh_at {s : Shape} (x : FVec Ideal s .f32) (i : s.Idx) : Host.tanh x i = Ideal.tanh (x i) := rfl
theorem neg_at {s : Shape} (x : FVec Ideal s .f32) (i : s.Idx) : Host.negf x i = -(x i) := rfl

/-- The reference spells the logistic function 1 / (1 + exp (−x)) with the pattern of 1.0 for both ones. -/
theorem logistic_at (hb : S_.BroadcastsInDim S65536x256 (![] : Fin 0 → Fin S65536x256.rank)) (x : FVec Ideal S65536x256 .f32)
    (i : S65536x256.Idx) :
    Host.divf (broadcastInDim S65536x256 ![] hb (constant (F := Ideal) S_ .f32 0x3F800000#32))
        (addf (broadcastInDim S65536x256 ![] hb (constant (F := Ideal) S_ .f32 0x3F800000#32)) (Host.exp (Host.negf x))) i
      = Ideal.logistic (x i) := by
  rw [hostDivf_apply, addf_apply, broadcastInDim_scalar_apply, constant_apply, exp_at, neg_at]
  show Ideal.div LstmCell.one32 (LstmCell.one32 + Ideal.exp (-(x i))) = _
  rw [LstmCell.one32_eq]
  rfl

end Reads

/-! ## The named intermediate arrays, row by row -/

/-- An entry's deviation from its row's mean. -/
def dev (v : Fin 256 → EReal) (k : Fin 256) : EReal := v k - LstmCell.rowMean v

section Buffers
variable (V0 : Valuation τ sig (Elt Ideal))

/-- The eleven argument arrays of a valuation. -/
abbrev aX : LstmCell.SB.Idx → EReal := V0 (Proc.devRef .tc main_arg0)
abbrev aH : LstmCell.SB.Idx → EReal := V0 (Proc.devRef .tc main_arg1)
abbrev aC : LstmCell.SB.Idx → EReal := V0 (Proc.devRef .tc main_arg2)
abbrev aW : LstmCell.SW.Idx → EReal := V0 (Proc.devRef .tc main_arg3)
abbrev aBias : LstmCell.S4H.Idx → EReal := V0 (Proc.devRef .tc main_arg4)
abbrev aG1 : LstmCell.S4H.Idx → EReal := V0 (Proc.devRef .tc main_arg5)
abbrev aB1 : LstmCell.S4H.Idx → EReal := V0 (Proc.devRef .tc main_arg6)
abbrev aG2 : LstmCell.SH.Idx → EReal := V0 (Proc.devRef .tc main_arg7)
abbrev aB2 : LstmCell.SH.Idx → EReal := V0 (Proc.devRef .tc main_arg8)
abbrev aMh : LstmCell.SB.Idx → EReal := V0 (Proc.devRef .tc main_arg9)
abbrev aMc : LstmCell.SB.Idx → EReal := V0 (Proc.devRef .tc main_arg10)

/-- Row r's 1024 pre-activations. -/
def pre (r : Fin 65536) : Fin 1024 → EReal := LstmCell.preOf (aX V0) (aH V0) (aW V0) (aBias V0) r

/-- The reshaped product-plus-bias at (r, g, k) is pre-activation 256 g + k of row r. -/
theorem v5_at (r : Fin 65536) (g : Fin 4) (k : Fin 256) :
    Value.res_main_v5 V0 (ix3 r g k) = pre V0 r (LstmCell.blk g k) := by
  unfold Value.res_main_v5
  show shapeCast S65536x4x256 _ _ (ix3 r g k) = _
  rw [cast_to3 _ _ r g k (LstmCell.blk g k) rfl, addf_apply, dot_at, bvec1024]
  unfold pre LstmCell.preOf
  rw [← LstmCell.preCat_eq_preSplit]
  exact congrArg₂ (· + ·) (Finset.sum_congr rfl fun c _ => by rw [cat_at]) rfl

/-- The block means. -/
theorem v9_at (r : Fin 65536) (g : Fin 4) (u : Fin 1) :
    Value.res_main_v9 V0 (ix3 r g u) = LstmCell.rowMean (fun k => Value.res_main_v5 V0 (ix3 r g k)) := by
  unfold Value.res_main_v9
  rw [hostDivf_apply, bunit4, sum4_at, broadcastInDim_scalar_apply, constant_apply]
  rfl

/-- The deviations from the block mean. -/
theorem v11_at (r : Fin 65536) (g : Fin 4) (k : Fin 256) :
    Value.res_main_v11 V0 (ix3 r g k) = dev (fun k => Value.res_main_v5 V0 (ix3 r g k)) k := by
  unfold Value.res_main_v11
  rw [subf_apply, bkeep4, v9_at]
  rfl

/-- The four normalized gates, side by side in a 1024-wide row. -/
theorem v30_at (r : Fin 65536) (g : Fin 4) (q : Fin 256) :
    Value.res_main_v30 V0 (ix2 r (LstmCell.blk g q))
      = LstmCell.gate (pre V0 r) (fun n => aG1 V0 (ix1 n)) (fun n => aB1 V0 (ix1 n)) g q := by
  unfold Value.res_main_v30
  show addf (mulf (shapeCast S65536x1024 _ _) _) _ (ix2 r (LstmCell.blk g q)) = _
  rw [addf_apply, mulf_apply, bvec1024, bvec1024, cast_to2 _ _ r g q (LstmCell.blk g q) rfl, mulf_apply, subf_apply,
    bkeep4, bkeep4, v9_at, rsqrt_at, addf_apply, hostDivf_apply, bunit4, sum4_at, broadcastInDim_scalar_apply,
    broadcastInDim_scalar_apply, constant_apply, constant_apply]
  simp only [mulf_apply, v11_at, v5_at]
  rfl

end Buffers

/-! ## The cell, its second normalization, and the two results -/

section Cell
variable (V0 : Valuation τ sig (Elt Ideal))

/-- The row's gain and bias vectors of the first normalization, as the specification takes them. -/
abbrev g1 : Fin 1024 → EReal := fun n => aG1 V0 (ix1 n)
abbrev b1 : Fin 1024 → EReal := fun n => aB1 V0 (ix1 n)

/-- The four 256-column slices of the normalized row are the four gates. -/
theorem gate0_at (hs : S65536x1024.Slices ![0, 0] S65536x256) (r : Fin 65536) (q : Fin 256) :
    extractStridedSlice S65536x256 ![0, 0] (Value.res_main_v30 V0 : S65536x1024.Idx → EReal) hs (ix2 r q)
      = LstmCell.gate (pre V0 r) (g1 V0) (b1 V0) 0 q :=
  (slice2_axis1_apply 0 _ hs r q (LstmCell.blk 0 q) rfl).trans (v30_at V0 r 0 q)

theorem gate1_at (hs : S65536x1024.Slices ![0, 256] S65536x256) (r : Fin 65536) (q : Fin 256) :
    extractStridedSlice S65536x256 ![0, 256] (Value.res_main_v30 V0 : S65536x1024.Idx → EReal) hs (ix2 r q)
      = LstmCell.gate (pre V0 r) (g1 V0) (b1 V0) 1 q :=
  (slice2_axis1_apply 256 _ hs r q (LstmCell.blk 1 q) rfl).trans (v30_at V0 r 1 q)

theorem gate2_at (hs : S65536x1024.Slices ![0, 512] S65536x256) (r : Fin 65536) (q : Fin 256) :
    extractStridedSlice S65536x256 ![0, 512] (Value.res_main_v30 V0 : S65536x1024.Idx → EReal) hs (ix2 r q)
      = LstmCell.gate (pre V0 r) (g1 V0) (b1 V0) 2 q :=
  (slice2_axis1_apply 512 _ hs r q (LstmCell.blk 2 q) rfl).trans (v30_at V0 r 2 q)

theorem gate3_at (hs : S65536x1024.Slices ![0, 768] S65536x256) (r : Fin 65536) (q : Fin 256) :
    extractStridedSlice S65536x256 ![0, 768] (Value.res_main_v30 V0 : S65536x1024.Idx → EReal) hs (ix2 r q)
      = LstmCell.gate (pre V0 r) (g1 V0) (b1 V0) 3 q :=
  (slice2_axis1_apply 768 _ hs r q (LstmCell.blk 3 q) rfl).trans (v30_at V0 r 3 q)

/-- The candidate cell state, before its normalization. -/
theorem v53_at (r : Fin 65536) (u : Fin 1) (q : Fin 256) :
    Value.res_main_v53 V0 (ix3 r u q) = LstmCell.newC (pre V0 r) (fun k => aC V0 (ix2 r k)) (g1 V0) (b1 V0) q := by
  unfold Value.res_main_v53
  show shapeCast S65536x1x256 _ _ (ix3 r u q) = _
  rw [cast_add1, addf_apply, mulf_apply, mulf_apply, logistic_at, logistic_at, tanh_at, addf_apply,
    broadcastInDim_scalar_apply, constant_apply, gate0_at, gate1_at, gate2_at]
  rfl

/-- Its mean over the row. -/
theorem v57_at (r : Fin 65536) (u u' : Fin 1) :
    Value.res_main_v57 V0 (ix3 r u u') = LstmCell.rowMean (fun k => Value.res_main_v53 V0 (ix3 r (0 : Fin 1) k)) := by
  unfold Value.res_main_v57
  rw [hostDivf_apply, bunit1, sum1_at, broadcastInDim_scalar_apply, constant_apply]
  rfl

/-- Its deviations from that mean. -/
theorem v59_at (r : Fin 65536) (q : Fin 256) :
    Value.res_main_v59 V0 (ix3 r (0 : Fin 1) q) = dev (fun k => Value.res_main_v53 V0 (ix3 r (0 : Fin 1) k)) q := by
  unfold Value.res_main_v59
  rw [subf_apply, bkeep1, v57_at]
  rfl

/-- The normalized new cell state. -/
theorem v78_at (r : Fin 65536) (q : Fin 256) :
    Value.res_main_v78 V0 (ix2 r q)
      = LstmCell.cellLn (pre V0 r) (fun k => aC V0 (ix2 r k)) (g1 V0) (b1 V0) (fun k => aG2 V0 (ix1 k)) (fun k => aB2 V0 (ix1 k)) q := by
  unfold Value.res_main_v78
  show addf (mulf (shapeCast S65536x256 _ _) _) _ (ix2 r q) = _
  rw [addf_apply, mulf_apply, bvec256, bvec256, cast_drop1, mulf_apply, subf_apply, bkeep1, bkeep1, v57_at, rsqrt_at,
    addf_apply, hostDivf_apply, bunit1, sum1_at, broadcastInDim_scalar_apply, broadcastInDim_scalar_apply, constant_apply,
    constant_apply]
  simp only [mulf_apply, v59_at, v53_at]
  rfl

/-- The two zoneout indicators. -/
theorem v89_at (r : Fin 65536) (q : Fin 256) :
    Value.res_main_v89 V0 (ix2 r q) = LstmCell.keepBit (aMh V0 (ix2 r q)) := by
  unfold Value.res_main_v89
  rfl

theorem v92_at (r : Fin 65536) (q : Fin 256) :
    Value.res_main_v92 V0 (ix2 r q) = LstmCell.keepBit (aMc V0 (ix2 r q)) := by
  unfold Value.res_main_v92
  rfl

/-- The hidden result's composed term over a valuation. -/
def resH : LstmCell.SB.Idx → EReal :=
  addf (mulf (Value.res_main_v89 V0) (mulf (Host.tanh (Value.res_main_v78 V0)) (Host.divf (broadcastInDim S65536x256 ![] bcast_S_S65536x256 (constant (F := Ideal) S_ .f32 0x3F800000#32)) (addf (broadcastInDim S65536x256 ![] bcast_S_S65536x256 (constant (F := Ideal) S_ .f32 0x3F800000#32)) (Host.exp (Host.negf (extractStridedSlice S65536x256 ![0, 768] (Value.res_main_v30 V0) slices_S65536x1024_S65536x256_0_768))))))) (mulf (subf (broadcastInDim S65536x256 ![] bcast_S_S65536x256 (constant (F := Ideal) S_ .f32 0x3F800000#32)) (Value.res_main_v89 V0)) (V0 (Proc.devRef .tc main_arg1)))

/-- The cell result's composed term over a valuation. -/
def resC : LstmCell.SB.Idx → EReal :=
  addf (mulf (Value.res_main_v92 V0) (Value.res_main_v78 V0)) (mulf (subf (broadcastInDim S65536x256 ![] bcast_S_S65536x256 (constant (F := Ideal) S_ .f32 0x3F800000#32)) (Value.res_main_v92 V0)) (V0 (Proc.devRef .tc main_arg2)))

/-- The hidden result is the specification's. -/
theorem resH_eq :
    resH V0 = LstmCell.GH (aX V0) (aH V0) (aC V0) (aW V0) (aBias V0) (aG1 V0) (aB1 V0) (aG2 V0) (aB2 V0) (aMh V0) := by
  funext i
  obtain ⟨r, q, rfl⟩ : ∃ (r : Fin 65536) (q : Fin 256), i = ix2 r q := ⟨i 0, i 1, eq_ix2 i⟩
  unfold resH
  rw [addf_apply, mulf_apply, mulf_apply, mulf_apply, subf_apply, tanh_at, logistic_at, broadcastInDim_scalar_apply,
    constant_apply, gate3_at, v89_at, v78_at]
  rfl

/-- The cell result is the specification's. -/
theorem resC_eq :
    resC V0 = LstmCell.GC (aX V0) (aH V0) (aC V0) (aW V0) (aBias V0) (aG1 V0) (aB1 V0) (aG2 V0) (aB2 V0) (aMc V0) := by
  funext i
  obtain ⟨r, q, rfl⟩ : ∃ (r : Fin 65536) (q : Fin 256), i = ix2 r q := ⟨i 0, i 1, eq_ix2 i⟩
  unfold resC
  rw [addf_apply, mulf_apply, mulf_apply, subf_apply, broadcastInDim_scalar_apply, constant_apply, v92_at, v78_at]
  rfl

end Cell

/-! ## The run -/

/-- Every weakly fair execution of the reference ends with its two results at the specification's whole-array
    functions of the arguments' launch contents, the arguments unchanged: the run, read back operation by operation, gives each
    result as the operations' composed term, and the two composed terms are `LstmCell.GH` and `LstmCell.GC`. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = LstmCell.GH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v102) = LstmCell.GC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c).1.trans (resH_eq (StableHlo.launchContents m c)), (h c).2.1.trans (resC_eq (StableHlo.launchContents m c)), (h c).2.2⟩)
    (Value.run (F := Ideal) m ρ)

end Cert.ReferenceIdeal.RefCell

end
-- ==== Proof.lean ====
/-
  One LayerNorm-LSTM cell step with zoneout: the tiled kernel against the whole-array reference.

  The two frames of the kernel are the generated ones; the reference has no kernel, and its frame is its run with
  the results dropped. The idealization rewrote nothing, so there is nothing to preserve. For the equivalence
  over the extended reals both runs are read as ONE pair of whole-array functions of the eleven arguments
  (`LstmCell.GH`, `LstmCell.GC`): the kernel's, block by block — each grid point writes rows 512 t … 512 t + 511,
  and entry (p, q) of what it writes is the cell step of row 512 t + p —, and the reference's, operation by
  operation. The only law between the two spellings is that the sum over the 512 entries of the concatenated row
  [x, h] is the sum of its two halves; no finiteness of the inputs is used, so the precondition is never opened.
-/
import proofs.«178262_j70815420776934_1_alg».proof.Defs
import proofs.«178262_j70815420776934_1_alg».proof.Proof.Gen.Kernel
import proofs.«178262_j70815420776934_1_alg».proof.Proof.Gen.Kernel.Skeleton
import proofs.«178262_j70815420776934_1_alg».proof.Proof.Gen.Kernel.Launch
import proofs.«178262_j70815420776934_1_alg».proof.Proof.Gen.Kernel.Points
import proofs.«178262_j70815420776934_1_alg».proof.Proof.Gen.Kernel.Frame
import proofs.«178262_j70815420776934_1_alg».proof.Proof.Gen.KernelIdeal
import proofs.«178262_j70815420776934_1_alg».proof.Proof.Gen.KernelIdeal.Skeleton
import proofs.«178262_j70815420776934_1_alg».proof.Proof.Gen.KernelIdeal.Launch
import proofs.«178262_j70815420776934_1_alg».proof.Proof.Gen.KernelIdeal.Points
import proofs.«178262_j70815420776934_1_alg».proof.Proof.Gen.KernelIdeal.Frame
import proofs.«178262_j70815420776934_1_alg».proof.Proof.Gen.ReferenceIdeal
import proofs.«178262_j70815420776934_1_alg».proof.Proof.Gen.Pre_finite_inputs
import proofs.«178262_j70815420776934_1_alg».proof.Proof.KernelIdealValue
import proofs.«178262_j70815420776934_1_alg».proof.Proof.Gen.ReferenceIdeal.Run
import proofs.«178262_j70815420776934_1_alg».proof.Proof.CellSpec
import proofs.«178262_j70815420776934_1_alg».proof.Proof.KerCell
import proofs.«178262_j70815420776934_1_alg».proof.Proof.KerArr
import proofs.«178262_j70815420776934_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end at the same two whole-array functions of arguments that agree. -/
theorem algebraic : Cert.algebraic_KernelIdeal_ReferenceIdeal := by
  intro m ρ m' ρ' _ hagree
  refine ⟨_, _, Cert.KernelIdeal.KerArr.run_spec m ρ, ?_⟩
  refine (θ_run Cert.ReferenceIdeal.defs _ _).mono (fun r h c => ?_) (Cert.ReferenceIdeal.RefCell.run_spec m' ρ')
  obtain ⟨hH, hC, hkept⟩ := h c
  obtain ⟨e0, e1, e2, e3, e4, e5, e6, e7, e8, e9, e10⟩ := hagree c
  refine ⟨hH.trans ?_, hC.trans ?_, hkept⟩
  · rw [e0, e1, e2, e3, e4, e5, e6, e7, e8, e9]
  · rw [e0, e1, e2, e3, e4, e5, e6, e7, e8, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
